-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072x128 : Shape := ⟨2, ![131072, 128]⟩
abbrev S384x2048 : Shape := ⟨2, ![384, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S384x2048 : S_.BroadcastsInDim S384x2048 (![] : Fin 0 → Fin S384x2048.rank)
  reducesTo_S384x2048_S_d0_1 : S384x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048x512 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S131072x512 .f32) (main_arg1 : FVec F S131072x128 .f32) (main_arg2 : FVec F S384x2048 .f32) (main_arg3 : FVec F S2048 .f32) (main_arg4 : FVec F S2048x512 .f32) (main_arg5 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S384x2048 .f32 := Host.absf main_arg2
  let main_cst_2 : FVec F S_ .f32 := constant S_ .f32 0x7F800000#32
  let main_v10 : FVec F S384x2048 .f32 := broadcastInDim S384x2048 ![] bcast_S_S384x2048 main_cst_2
  let main_v11 : IVec S384x2048 1 := cmpf .olt main_v9 main_v10
  let main_c_3 : IVec S_ 1 := constantI S_ 1 1#1
  let main_v12 : IVec S_ 1 := (fun x v => Host.reduce IntOp.andi x v reducesTo_S384x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S131072x512 : Shape := ⟨2, ![131072, 512]⟩
abbrev S131072x128 : Shape := ⟨2, ![131072, 128]⟩
abbrev S384x2048 : Shape := ⟨2, ![384, 2048]⟩
abbrev S2048 : Shape := ⟨1, ![2048]⟩
abbrev S2048x512 : Shape := ⟨2, ![2048, 512]⟩
abbrev S512 : Shape := ⟨1, ![512]⟩
abbrev S256x2048 : Shape := ⟨2, ![256, 2048]⟩
abbrev S128x2048 : Shape := ⟨2, ![128, 2048]⟩
abbrev S131072 : Shape := ⟨1, ![131072]⟩
abbrev S1024x512 : Shape := ⟨2, ![1024, 512]⟩
abbrev S1024x128 : Shape := ⟨2, ![1024, 128]⟩
abbrev S1024 : Shape := ⟨1, ![1024]⟩
abbrev S1024x256x2 : Shape := ⟨3, ![1024, 256, 2]⟩
abbrev S1024x256x1 : Shape := ⟨3, ![1024, 256, 1]⟩
abbrev S1024x256 : Shape := ⟨2, ![1024, 256]⟩
abbrev S1024x2048 : Shape := ⟨2, ![1024, 2048]⟩
abbrev S1x2048 : Shape := ⟨2, ![1, 2048]⟩
abbrev S1x512 : Shape := ⟨2, ![1, 512]⟩

abbrev nBuf : Space → Nat
  | .hbm => 13
  | .vmem => 13
  | .smem => 0
  | _ => 0

abbrev bufTy : (tb : Table) → Fin (tcTables nBuf tb) → BufTy
  | .hbm, ⟨0, _⟩ => ⟨S131072x512, .f32⟩
  | .hbm, ⟨1, _⟩ => ⟨S131072x128, .f32⟩
  | .hbm, ⟨2, _⟩ => ⟨S384x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S256x2048, .f32⟩
  | .hbm, ⟨7, _⟩ => ⟨S256x2048, .bf16⟩
  | .hbm, ⟨8, _⟩ => ⟨S128x2048, .f32⟩
  | .hbm, ⟨9, _⟩ => ⟨S128x2048, .bf16⟩
  | .hbm, ⟨10, _⟩ => ⟨S2048x512, .bf16⟩
  | .hbm, ⟨11, _⟩ => ⟨S131072x512, .f32⟩
  | .hbm, ⟨12, _⟩ => ⟨S131072, .f32⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S256x2048, .bf16⟩
  | .local _ .vmem, ⟨5, _⟩ => ⟨S128x2048, .bf16⟩
  | .local _ .vmem, ⟨6, _⟩ => ⟨S2048, .f32⟩
  | .local _ .vmem, ⟨7, _⟩ => ⟨S2048x512, .bf16⟩
  | .local _ .vmem, ⟨8, _⟩ => ⟨S512, .f32⟩
  | .local _ .vmem, ⟨9, _⟩ => ⟨S1024x512, .f32⟩
  | .local _ .vmem, ⟨10, _⟩ => ⟨S1024x512, .f32⟩
  | .local _ .vmem, ⟨11, _⟩ => ⟨S1024, .f32⟩
  | .local _ .vmem, ⟨12, _⟩ => ⟨S1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S384x2048_S256x2048_0_0 : S384x2048.Slices ![0, 0] S256x2048
  bitsLt_bf16_f32 : FTy.bits .bf16 < FTy.bits .f32
  slices_S384x2048_S128x2048_256_0 : S384x2048.Slices ![256, 0] S128x2048
  inb_S1024x512_S1024x512_0_0 : ∀ a, (![0, 0] : Fin 2 → Nat) a + S1024x512.size a ≤ S1024x512.size a
  h_S1024x512 : 0 < S1024x512.numel
  inb_S1024x128_S1024x128_0_0 : ∀ a, (![0, 0] : Fin 2 → Nat) a + S1024x128.size a ≤ S1024x128.size a
  h_S1024x128 : 0 < S1024x128.numel
  shapeCasts_S1024x512_S1024x256x2 : S1024x512.ShapeCasts S1024x256x2
  slices_S1024x256x2_o0_0_0_S1024x256x1 : S1024x256x2.Slices ![0, 0, 0] S1024x256x1
  shapeCasts_S1024x256x1_S1024x256 : S1024x256x1.ShapeCasts S1024x256
  slices_S1024x256x2_o0_0_1_S1024x256x1 : S1024x256x2.Slices ![0, 0, 1] S1024x256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  slices_S1024x512_o0_0_S1024x256 : S1024x512.Slices ![0, 0] S1024x256
  slices_S1024x512_o0_256_S1024x256 : S1024x512.Slices ![0, 256] S1024x256
  shapeCasts_S1024x256_S1024x256x1 : S1024x256.ShapeCasts S1024x256x1
  concatenates_S1024x256x1_S1024x256x1_S1024x256x2_d2 : Shape.Concatenates [S1024x256x1, S1024x256x1] S1024x256x2 2
  shapeCasts_S1024x256x2_S1024x512 : S1024x256x2.ShapeCasts S1024x512
  reduces_S1024x256_S1024 : S1024x256.Reduces [1] S1024
  inb_S1024_S1024_0 : ∀ a, (![0] : Fin 1 → Nat) a + S1024.size a ≤ S1024.size a
  h_S1024 : 0 < S1024.numel
  dot_S1024x256_S256x2048_S1024x2048_1_0_0_1_n_n_wf : DotDims.WF S1024x256 S256x2048 S1024x2048 [1] [0] [0] [1] [] []
  dot_S1024x128_S128x2048_S1024x2048_1_0_0_1_n_n_wf : DotDims.WF S1024x128 S128x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .bf16 = 32 ∨ (Rect.block (s := S128x2048) S128x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S131072x512.size a
  hwx0_7 : ∀ i : grid0.Coords, EltTy.bits .f32 = 32 ∨ (Rect.block (s := S131072x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S131072.size a
  hwx0_8 : ∀ i : grid0.Coords, EltTy.bits .f32 = 32 ∨ (Rect.block (s := S131072) S1024.size (cc0_transform_8 i) (hinb0_8 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072x128 : Shape := ⟨2, ![131072, 128]⟩
abbrev S384x2048 : Shape := ⟨2, ![384, 2048]⟩
abbrev S2048 : Shape := ⟨1, ![2048]⟩
abbrev S2048x512 : Shape := ⟨2, ![2048, 512]⟩
abbrev S512 : Shape := ⟨1, ![512]⟩
abbrev S256 : Shape := ⟨1, ![256]⟩
abbrev S_ : Shape := ⟨0, ![]⟩
abbrev S256x1 : Shape := ⟨2, ![256, 1]⟩
abbrev S131072x256 : Shape := ⟨2, ![131072, 256]⟩
abbrev S131072x384 : Shape := ⟨2, ![131072, 384]⟩
abbrev S131072x2048 : Shape := ⟨2, ![131072, 2048]⟩
abbrev S1x2048 : Shape := ⟨2, ![1, 2048]⟩
abbrev S1x512 : Shape := ⟨2, ![1, 512]⟩
abbrev S131072 : Shape := ⟨1, ![131072]⟩

abbrev nBuf : Space → Nat
  | .hbm => 58
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x128, .f32⟩
  | .hbm, ⟨2, _⟩ => ⟨S384x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S131072x256, .f32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S131072x256, .f32⟩
  | .hbm, ⟨26, _⟩ => ⟨S131072x384, .f32⟩
  | .hbm, ⟨27, _⟩ => ⟨S131072x2048, .f32⟩
  | .hbm, ⟨28, _⟩ => ⟨S1x2048, .f32⟩
  | .hbm, ⟨29, _⟩ => ⟨S131072x2048, .f32⟩
  | .hbm, ⟨30, _⟩ => ⟨S131072x2048, .f32⟩
  | .hbm, ⟨31, _⟩ => ⟨S_, .f32⟩
  | .hbm, ⟨32, _⟩ => ⟨S131072x2048, .f32⟩
  | .hbm, ⟨33, _⟩ => ⟨S131072x2048, .f32⟩
  | .hbm, ⟨34, _⟩ => ⟨S131072x512, .f32⟩
  | .hbm, ⟨35, _⟩ => ⟨S1x512, .f32⟩
  | .hbm, ⟨36, _⟩ => ⟨S131072x512, .f32⟩
  | .hbm, ⟨37, _⟩ => ⟨S131072x512, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S_, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S131072x512, .f32⟩
  | .hbm, ⟨56, _⟩ => ⟨S_, .f32⟩
  | .hbm, ⟨57, _⟩ => ⟨S131072, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_c_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_c_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S131072x256_S131072x128_S131072x384_d1 : Shape.Concatenates [S131072x256, S131072x128] S131072x384 1
  bcast_S2048_S1x2048_1 : S2048.BroadcastsInDim S1x2048 (![1] : Fin 1 → Fin S1x2048.rank)
  bcast_S1x2048_S131072x2048_0_1 : S1x2048.BroadcastsInDim S131072x2048 (![0, 1] : Fin 2 → Fin S131072x2048.rank)
  bcast_S_S131072x2048 : S_.BroadcastsInDim S131072x2048 (![] : Fin 0 → Fin S131072x2048.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x256_0_0 : S131072x512.Slices ![0, 0] S131072x256
  slices_S131072x512_S131072x256_0_256 : S131072x512.Slices ![0, 256] S131072x256
  bcast_S_S131072x256 : S_.BroadcastsInDim S131072x256 (![] : Fin 0 → Fin S131072x256.rank)
  reducesTo_S131072x256_S131072_d1 : S131072x256.ReducesTo [1] S131072
  h_S_ : 0 < S_.numel
  gather_S131072x512_S256x1_S131072x256_0_1_n_n_1_1_1310721_wf : GatherDims.WF S131072x512 S256x1 S131072x256 [0] [1] [] [1] [] 1 ![131072, 1]
  dot_S131072x384_S384x2048_S131072x2048_1_0_0_1_n_n_wf : DotDims.WF S131072x384 S384x2048 S131072x2048 [1] [0] [0] [1] [] []
  dot_S131072x2048_S2048x512_S131072x512_1_0_0_1_n_n_wf : DotDims.WF S131072x2048 S2048x512 S131072x512 [1] [0] [0] [1] [] []
  scatter_S131072x512_S256x1_S131072x256_0_1_1_1_wf : ScatterDims.WF S131072x512 S256x1 S131072x256 [0] [1] [1] 1

variable [Facts₀]

def gather_S131072x512_S256x1_S131072x256_0_1_n_n_1_1_1310721 : GatherDims S131072x512 S256x1 S131072x256 where
  offsetDims := [0]
  collapsedSliceDims := [1]
  operandBatchingDims := []
  startIndicesBatchingDims := []
  startIndexMap := [1]
  indexVectorDim := 1
  sliceSizes := ![131072, 1]
  wf := gather_S131072x512_S256x1_S131072x256_0_1_n_n_1_1_1310721_wf
def dot_S131072x384_S384x2048_S131072x2048_1_0_0_1_n_n : DotDims S131072x384 S384x2048 S131072x2048 where
  lhsContracting := [1]
  rhsContracting := [0]
  lhsNonContracting := [0]
  rhsNonContracting := [1]
  lhsBatch := []
  rhsBatch := []
  wf := dot_S131072x384_S384x2048_S131072x2048_1_0_0_1_n_n_wf
def dot_S131072x2048_S2048x512_S131072x512_1_0_0_1_n_n : DotDims S131072x2048 S2048x512 S131072x512 where
  lhsContracting := [1]
  rhsContracting := [0]
  lhsNonContracting := [0]
  rhsNonContracting := [1]
  lhsBatch := []
  rhsBatch := []
  wf := dot_S131072x2048_S2048x512_S131072x512_1_0_0_1_n_n_wf
def scatter_S131072x512_S256x1_S131072x256_0_1_1_1 : ScatterDims S131072x512 S256x1 S131072x256 where
  updateWindowDims := [0]
  insertedWindowDims := [1]
  scatterDimsToOperandDims := [1]
  indexVectorDim := 1
  wf := scatter_S131072x512_S256x1_S131072x256_0_1_1_1_wf

class Facts : Prop extends Facts₀ where

variable [Facts]
-- ==== Proof.Spec.lean ====
/-
  The conditional affine coupling layer as ONE function of its six argument arrays, element by element, over the
  extended reals.

  The layer acts row by row. Row r of the input x (width 512) is split into its even columns (the conditioning half,
  256 wide) and its odd columns (the transformed half). The conditioning half and the context row (width 128) feed a
  two-layer network:
    hidden j      = max ( (Σ_{k<256} x[r,2k]·W1[k,j] + Σ_{k<128} ctx[r,k]·W1[256+k,j]) + b1[j] , 0 )
    shiftScale q  = (Σ_{j<2048} hidden j · W2[j,q]) + b2[q]                       (q < 512)
    logScale k    = tanh (shiftScale k) · 5                                       (k < 256)
  and the result is
    out[r, 2k]   = x[r, 2k]
    out[r, 2k+1] = x[r, 2k+1] · exp (logScale k) + shiftScale (256 + k)
    logDet[r]    = Σ_{k<256} logScale k.
  The two float literals (0 and 5) are kept as the words both programs print.
-/
import Idealize.ShloMosaic.PureOps.Ideal
import Idealize.ShloMosaic.Lib.ValueIdx

noncomputable section

open scoped BigOperators

namespace Cert.Coupling

open Idealize.ShloMosaic Idealize.ShloMosaic.ValueIdx

abbrev SX : Shape := ⟨2, ![131072, 512]⟩
abbrev SCtx : Shape := ⟨2, ![131072, 128]⟩
abbrev SW1 : Shape := ⟨2, ![384, 2048]⟩
abbrev SB1 : Shape := ⟨1, ![2048]⟩
abbrev SW2 : Shape := ⟨2, ![2048, 512]⟩
abbrev SB2 : Shape := ⟨1, ![512]⟩
abbrev SLd : Shape := ⟨1, ![131072]⟩

/-- Column 2k: the k-th conditioning column. -/
def evenCol (k : Fin 256) : Fin 512 := ⟨2 * k.val, by have := k.isLt; omega⟩
/-- Column 2k+1: the k-th transformed column. -/
def oddCol (k : Fin 256) : Fin 512 := ⟨2 * k.val + 1, by have := k.isLt; omega⟩
/-- Row k of the first weight matrix: the rows that meet the conditioning half. -/
def condRow (k : Fin 256) : Fin 384 := ⟨k.val, by have := k.isLt; omega⟩
/-- Row 256+k of the first weight matrix: the rows that meet the context. -/
def ctxRow (k : Fin 128) : Fin 384 := ⟨256 + k.val, by have := k.isLt; omega⟩
/-- Column k of the second layer's output: the scale half. -/
def scaleCol (k : Fin 256) : Fin 512 := ⟨k.val, by have := k.isLt; omega⟩
/-- Column 256+k of the second layer's output: the shift half. -/
def shiftCol (k : Fin 256) : Fin 512 := ⟨256 + k.val, by have := k.isLt; omega⟩
/-- The pair a column belongs to. -/
def pairOf (c : Fin 512) : Fin 256 := ⟨c.val / 2, by have := c.isLt; omega⟩

/-! ## One row

The layer acts row by row. For one row: its 512 inputs xr, its 128 context values cr, the first weight matrix as its
two row blocks wa (256 rows, met by the conditioning half) and wb (128 rows, met by the context), and the second layer. -/

section Row
variable (xr : Fin 512 → EReal) (cr : Fin 128 → EReal) (wa : Fin 256 → Fin 2048 → EReal) (wb : Fin 128 → Fin 2048 → EReal)
  (b1 : Fin 2048 → EReal) (w2 : Fin 2048 → Fin 512 → EReal) (b2 : Fin 512 → EReal)

/-- The hidden layer after the rectifier. -/
def rowHidden (j : Fin 2048) : EReal :=
  max (((∑ k : Fin 256, xr (evenCol k) * wa k j) + ∑ k : Fin 128, cr k * wb k j) + b1 j)
    (Ideal.ofBits .f32 0x00000000#32)

/-- The second layer: scale logits in columns 0..255, shifts in columns 256..511. -/
def rowShiftScale (q : Fin 512) : EReal := (∑ j : Fin 2048, rowHidden xr cr wa wb b1 j * w2 j q) + b2 q

/-- The bounded log-scale. -/
def rowLogScale (k : Fin 256) : EReal :=
  Ideal.tanh (rowShiftScale xr cr wa wb b1 w2 b2 (scaleCol k)) * Ideal.ofBits .f32 0x40A00000#32

/-- The row's output at column c: even columns pass through, odd columns are scaled and shifted. -/
def rowOut (c : Fin 512) : EReal :=
  if c.val % 2 = 0 then xr c
  else xr c * Ideal.exp (rowLogScale xr cr wa wb b1 w2 b2 (pairOf c))
        + rowShiftScale xr cr wa wb b1 w2 b2 (shiftCol (pairOf c))

/-- The row's log-determinant. -/
def rowLogDet : EReal := ∑ k : Fin 256, rowLogScale xr cr wa wb b1 w2 b2 k

end Row

/-! ## The arrays -/

section
variable (x : SX.Idx → EReal) (ctx : SCtx.Idx → EReal) (W1 : SW1.Idx → EReal) (b1 : SB1.Idx → EReal)
  (W2 : SW2.Idx → EReal) (b2 : SB2.Idx → EReal)

/-- The output at row r, column c. -/
def outAt (r : Fin 131072) (c : Fin 512) : EReal :=
  rowOut (fun c => x (ix2 r c)) (fun k => ctx (ix2 r k)) (fun k j => W1 (ix2 (condRow k) j))
    (fun k j => W1 (ix2 (ctxRow k) j)) (fun j => b1 (ix1 j)) (fun j q => W2 (ix2 j q)) (fun q => b2 (ix1 q)) c

/-- The output array. -/
def out : SX.Idx → EReal := fun i => outAt x ctx W1 b1 W2 b2 (i 0) (i 1)

/-- The log-determinant at row r. -/
def logDetAt (r : Fin 131072) : EReal :=
  rowLogDet (fun c => x (ix2 r c)) (fun k => ctx (ix2 r k)) (fun k j => W1 (ix2 (condRow k) j))
    (fun k j => W1 (ix2 (ctxRow k) j)) (fun j => b1 (ix1 j)) (fun j q => W2 (ix2 j q)) (fun q => b2 (ix1 q))

/-- The log-determinant array. -/
def logDet : SLd.Idx → EReal := fun i => logDetAt x ctx W1 b1 W2 b2 (i 0)

theorem out_ix2 (r : Fin 131072) (c : Fin 512) : out x ctx W1 b1 W2 b2 (ix2 r c) = outAt x ctx W1 b1 W2 b2 r c := rfl
theorem logDet_ix1 (r : Fin 131072) : logDet x ctx W1 b1 W2 b2 (ix1 r) = logDetAt x ctx W1 b1 W2 b2 r := rfl

end

end Cert.Coupling

end
-- ==== Proof.PayloadAtLemmas.lean ====
/-
  The kernel body's values read entry by entry. A row of 512 is regrouped row-major into 256 pairs, so that entry
  (k, e) of row p is column 2k + e: the first entries of the pairs are the conditioning half (columns 2k), the second
  entries the transformed half (columns 2k + 1). A plain M×K by K×N product into a zero accumulator is, at (p, j), the sum
  over k of lhs (p, k) · rhs (k, j); a bias laid as one row and repeated down the rows adds its entry at the column. With
  these the hidden block at (p, j) is the hidden layer of row p at j, the pre-activation block at (p, q) the second layer
  of row p at q, the log-scale block at (p, k) the bounded log-scale, and the output block — the conditioning half and the
  scaled and shifted transformed half paired up again — at (p, q) the row's output at q: the input itself at an even q,
  x · exp (log-scale (q / 2)) + shift (q / 2) at an odd q. The lane sum of the log-scale block at p is the row's sum.
  Over the extended reals the narrowing format changes are the identity.
-/
import proofs.«418403_j38010460569904_3_alg».proof.Proof.Gen.KernelIdeal.Frame
import proofs.«418403_j38010460569904_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Coupling.Body

open Cert.KernelIdeal Cert.KernelIdeal.Gen Idealize.ShloMosaic Idealize.ShloMosaic.ValueIdx Cert.Coupling

/-! ## Whole-buffer offsets -/

/-- The offsets of a whole rank-2 buffer are all zero. -/
theorem off2_zero : (![0, 0] : Fin 2 → Nat) = fun _ => 0 :=
  funext fun a => match a with | ⟨0, _⟩ => rfl | ⟨1, _⟩ => rfl

/-- The offset of a whole rank-1 buffer is zero. -/
theorem off1_zero : (![0] : Fin 1 → Nat) = fun _ => 0 :=
  funext fun a => match a with | ⟨0, _⟩ => rfl

/-! ## The interleaving of a row -/

/-- The row-major regrouping of a row of 512 into 256 pairs: entry (k, e) of row p is column 2k + e. -/
theorem pay2_at (x0 : Vec Ideal S1024x512 .f32) (p : Fin 1024) (k : Fin 256) (e : Fin 2) (c : Fin 512)
    (hc : c.val = 2 * k.val + e.val) : k0_pay2 x0 (ix3 p k e) = x0 (ix2 p c) := by
  unfold k0_pay2
  refine shapeCast_apply x0 _ _ _ ?_
  rw [Shape.rowMajor_val_two, Shape.rowMajor_val_three]
  show p.val * 512 + c.val = (p.val * 256 + k.val) * 2 + e.val
  omega

/-- Dropping the trailing unit axis of a [1024, 256, 1] block. -/
theorem dropLast_at (v : FVec Ideal S1024x256x1 .f32) (h : S1024x256x1.ShapeCasts S1024x256) (p : Fin 1024) (k : Fin 256) :
    shapeCast S1024x256 v h (ix2 p k) = v (ix3 p k (0 : Fin 1)) := by
  refine shapeCast_apply _ _ (ix2 p k) (ix3 p k (0 : Fin 1)) ?_
  rw [Shape.rowMajor_val_two, Shape.rowMajor_val_three]
  show (p.val * 256 + k.val) * 1 + 0 = p.val * 256 + k.val
  omega

/-- Adding a trailing unit axis to a [1024, 256] block. -/
theorem addLast_at (v : FVec Ideal S1024x256 .f32) (h : S1024x256.ShapeCasts S1024x256x1) (p : Fin 1024) (k : Fin 256) (u : Fin 1) :
    shapeCast S1024x256x1 v h (ix3 p k u) = v (ix2 p k) := by
  refine shapeCast_apply _ _ (ix3 p k u) (ix2 p k) ?_
  rw [Shape.rowMajor_val_two, Shape.rowMajor_val_three]
  show p.val * 256 + k.val = (p.val * 256 + k.val) * 1 + u.val
  omega

/-- The conditioning half: entry k of row p is column 2k. -/
theorem pay3_at (x0 : Vec Ideal S1024x512 .f32) (p : Fin 1024) (k : Fin 256) :
    k0_pay3 x0 (ix2 p k) = x0 (ix2 p (evenCol k)) := by
  unfold k0_pay3
  refine (dropLast_at _ _ p k).trans ?_
  refine (extractStridedSlice_apply _ _ _ (ix3 p k (0 : Fin 1)) (ix3 p k (0 : Fin 2)) ?_).trans ?_
  · intro a
    match a with
    | ⟨0, _⟩ => exact (Nat.zero_add _).symm
    | ⟨1, _⟩ => exact (Nat.zero_add _).symm
    | ⟨2, _⟩ => rfl
  exact pay2_at x0 p k 0 (evenCol k) rfl

/-- The transformed half: entry k of row p is column 2k + 1. -/
theorem oddHalf_at (x0 : Vec Ideal S1024x512 .f32) (p : Fin 1024) (k : Fin 256) :
    shapeCast S1024x256 (extractStridedSlice S1024x256x1 ![0, 0, 1] (k0_pay2 x0) Facts₀.slices_S1024x256x2_o0_0_1_S1024x256x1)
        Facts₀.shapeCasts_S1024x256x1_S1024x256 (ix2 p k) = x0 (ix2 p (oddCol k)) := by
  refine (dropLast_at _ _ p k).trans ?_
  refine (extractStridedSlice_apply _ _ _ (ix3 p k (0 : Fin 1)) (ix3 p k (1 : Fin 2)) ?_).trans ?_
  · intro a
    match a with
    | ⟨0, _⟩ => exact (Nat.zero_add _).symm
    | ⟨1, _⟩ => exact (Nat.zero_add _).symm
    | ⟨2, _⟩ => rfl
  exact pay2_at x0 p k 1 (oddCol k) rfl

/-! ## A plain product read at an entry -/

/-- The contraction of a plain M×K by K×N product into a zero accumulator, one coordinate at a time. -/
theorem plain_matmul_at {M K N : Nat} {φ₁ φ₂ : FTy} (lhs : FVec Ideal ⟨2, ![M, K]⟩ φ₁) (rhs : FVec Ideal ⟨2, ![K, N]⟩ φ₂)
    (p : Fin M) (j : Fin N) :
    FloatOps.matmul (DotDims.plain M K N) none lhs rhs (constant (F := Ideal) ⟨2, ![M, N]⟩ .f32 0x00000000#32) (ix2 p j)
      = ∑ k : Fin K, lhs (ix2 p k) * rhs (ix2 k j) := by
  rw [Ideal.matmul_constant_zero_apply]
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; refine Fin.ext ?_
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; refine Fin.ext ?_
    match a with
    | ⟨0, _⟩ => exact contrEquiv1_symm_val (DotDims.plain M K N) K rfl rfl k
    | ⟨1, _⟩ => rfl
  rw [hl, hr]

/-- The three products of the body are plain products. -/
theorem dotA_eq : dot_S1024x256_S256x2048_S1024x2048_1_0_0_1_n_n = DotDims.plain 1024 256 2048 := rfl
theorem dotB_eq : dot_S1024x128_S128x2048_S1024x2048_1_0_0_1_n_n = DotDims.plain 1024 128 2048 := rfl
theorem dotC_eq : dot_S1024x2048_S2048x512_S1024x512_1_0_0_1_n_n = DotDims.plain 1024 2048 512 := rfl

/-! ## The two layers -/

section Layers
variable (x0 : FVec Ideal S1024x512 .f32) (x1 : FVec Ideal S1024x128 .f32) (x2 : FVec Ideal S256x2048 .bf16)
  (x3 : FVec Ideal S128x2048 .bf16) (x4 : FVec Ideal S2048 .f32) (x5 : FVec Ideal S2048x512 .bf16) (x6 : FVec Ideal S512 .f32)

/-- The hidden block: both products, the bias row, the rectifier. -/
def hiddenBlock : FVec Ideal S1024x2048 .f32 :=
  maximumf
    (addf
      (addf
        (matmul dot_S1024x256_S256x2048_S1024x2048_1_0_0_1_n_n none (truncf .bf16 (k0_pay3 (F := Ideal) x0) Facts₀.bitsLt_bf16_f32)
          (shapeCast S256x2048 x2 Facts₀.shapeCasts_S256x2048_S256x2048) (constant S1024x2048 .f32 0x00000000#32))
        (matmul dot_S1024x128_S128x2048_S1024x2048_1_0_0_1_n_n none (truncf .bf16 x1 Facts₀.bitsLt_bf16_f32)
          (shapeCast S128x2048 x3 Facts₀.shapeCasts_S128x2048_S128x2048) (constant S1024x2048 .f32 0x00000000#32)))
      (broadcastTo S1024x2048 (shapeCast S1x2048 x4 Facts₀.shapeCasts_S2048_S1x2048) Facts₀.broadcasts_S1x2048_S1024x2048))
    (broadcast S1024x2048 (Scalar.ofBits .f32 0x00000000#32))

/-- The pre-activation block is the second layer applied to the hidden block. -/
theorem pay4_eq : k0_pay4 (F := Ideal) x0 x1 x2 x3 x4 x5 x6
    = addf
        (matmul dot_S1024x2048_S2048x512_S1024x512_1_0_0_1_n_n none (truncf .bf16 (hiddenBlock x0 x1 x2 x3 x4) Facts₀.bitsLt_bf16_f32)
          (shapeCast S2048x512 x5 Facts₀.shapeCasts_S2048x512_S2048x512) (constant S1024x512 .f32 0x00000000#32))
        (broadcastTo S1024x512 (shapeCast S1x512 x6 Facts₀.shapeCasts_S512_S1x512) Facts₀.broadcasts_S1x512_S1024x512) := rfl

/-- A bias vector laid as one row and repeated down the rows reads its entry at the column. -/
theorem biasRow_at {n a : Nat} (b : FVec Ideal ⟨1, ![n]⟩ .f32) (h1 : (⟨1, ![n]⟩ : Shape).ShapeCasts ⟨2, ![1, n]⟩)
    (h2 : (⟨2, ![1, n]⟩ : Shape).Broadcasts ⟨2, ![a, n]⟩) (p : Fin a) (j : Fin n) :
    broadcastTo ⟨2, ![a, n]⟩ (shapeCast ⟨2, ![1, n]⟩ b h1) h2 (ix2 p j) = b (ix1 j) :=
  (broadcastTo_1b_ab_apply _ h2 p j).trans (shapeCast_a_1a_apply b h1 0 j)

/-- The hidden block at (p, j) is the hidden layer of row p at j. -/
theorem hiddenBlock_at (p : Fin 1024) (j : Fin 2048) :
    hiddenBlock x0 x1 x2 x3 x4 (ix2 p j)
      = rowHidden (fun c => x0 (ix2 p c)) (fun k => x1 (ix2 p k)) (fun k j => x2 (ix2 k j)) (fun k j => x3 (ix2 k j))
          (fun j => x4 (ix1 j)) j := by
  unfold hiddenBlock rowHidden
  refine (maximumf_apply _ _ _).trans (congrArg₂ max ?_ rfl)
  refine (addf_apply _ _ _).trans (congrArg₂ (· + ·) ?_ ?_)
  · refine (addf_apply _ _ _).trans (congrArg₂ (· + ·) ?_ ?_)
    · refine (plain_matmul_at _ _ p j).trans (Finset.sum_congr rfl fun k _ => congrArg₂ (· * ·) ?_ ?_)
      · exact (truncf_apply (ψ := .bf16) (k0_pay3 (F := Ideal) x0) Facts₀.bitsLt_bf16_f32 (ix2 p k)).trans (pay3_at x0 p k)
      · exact congrFun (shapeCast_self x2 _) _
    · refine (plain_matmul_at _ _ p j).trans (Finset.sum_congr rfl fun k _ => congrArg₂ (· * ·) ?_ ?_)
      · exact truncf_apply (ψ := .bf16) x1 Facts₀.bitsLt_bf16_f32 (ix2 p k)
      · exact congrFun (shapeCast_self x3 _) _
  · exact biasRow_at x4 _ _ p j

/-- The pre-activation block at (p, q) is the second layer of row p at q. -/
theorem pay4_at (p : Fin 1024) (q : Fin 512) :
    k0_pay4 (F := Ideal) x0 x1 x2 x3 x4 x5 x6 (ix2 p q)
      = rowShiftScale (fun c => x0 (ix2 p c)) (fun k => x1 (ix2 p k)) (fun k j => x2 (ix2 k j)) (fun k j => x3 (ix2 k j))
          (fun j => x4 (ix1 j)) (fun j q => x5 (ix2 j q)) (fun q => x6 (ix1 q)) q := by
  rw [pay4_eq]
  unfold rowShiftScale
  refine (addf_apply _ _ _).trans (congrArg₂ (· + ·) ?_ ?_)
  · refine (plain_matmul_at _ _ p q).trans (Finset.sum_congr rfl fun j _ => congrArg₂ (· * ·) ?_ ?_)
    · exact (truncf_apply (ψ := .bf16) (hiddenBlock x0 x1 x2 x3 x4) Facts₀.bitsLt_bf16_f32 (ix2 p j)).trans (hiddenBlock_at x0 x1 x2 x3 x4 p j)
    · exact congrFun (shapeCast_self x5 _) _
  · exact biasRow_at x6 _ _ p q

end Layers

/-! ## The log-scale, the output block, the lane sum -/

section Outputs
variable (x0 : FVec Ideal S1024x512 .f32) (x1 : FVec Ideal S1024x128 .f32) (x2 : FVec Ideal S256x2048 .bf16)
  (x3 : FVec Ideal S128x2048 .bf16) (x4 : FVec Ideal S2048 .f32) (x5 : FVec Ideal S2048x512 .bf16) (x6 : FVec Ideal S512 .f32)

/-- The log-scale block at (p, k) is the bounded log-scale of row p at k. -/
theorem pay5_at (p : Fin 1024) (k : Fin 256) :
    k0_pay5 (F := Ideal) x0 x1 x2 x3 x4 x5 x6 (ix2 p k)
      = rowLogScale (fun c => x0 (ix2 p c)) (fun k => x1 (ix2 p k)) (fun k j => x2 (ix2 k j)) (fun k j => x3 (ix2 k j))
          (fun j => x4 (ix1 j)) (fun j q => x5 (ix2 j q)) (fun q => x6 (ix1 q)) k := by
  unfold k0_pay5 rowLogScale
  refine (mulf_apply _ _ _).trans (congrArg₂ (· * ·) ?_ rfl)
  refine congrArg Ideal.tanh ?_
  exact (slice2_axis1_apply 0 _ _ p k (scaleCol k) (Nat.zero_add _).symm).trans (pay4_at x0 x1 x2 x3 x4 x5 x6 p (scaleCol k))

/-- The transformed values: entry (p, k) is column 2k+1 of row p, scaled and shifted. -/
def transformedBlock : FVec Ideal S1024x256 .f32 :=
  addf
    (mulf
      (shapeCast S1024x256 (extractStridedSlice S1024x256x1 ![0, 0, 1] (k0_pay2 (F := Ideal) x0) Facts₀.slices_S1024x256x2_o0_0_1_S1024x256x1)
        Facts₀.shapeCasts_S1024x256x1_S1024x256)
      (exp (k0_pay5 (F := Ideal) x0 x1 x2 x3 x4 x5 x6)))
    (extractStridedSlice S1024x256 ![0, 256] (k0_pay4 (F := Ideal) x0 x1 x2 x3 x4 x5 x6) Facts₀.slices_S1024x512_o0_256_S1024x256)

theorem transformedBlock_at (p : Fin 1024) (k : Fin 256) :
    transformedBlock x0 x1 x2 x3 x4 x5 x6 (ix2 p k)
      = x0 (ix2 p (oddCol k))
          * Ideal.exp (rowLogScale (fun c => x0 (ix2 p c)) (fun k => x1 (ix2 p k)) (fun k j => x2 (ix2 k j)) (fun k j => x3 (ix2 k j))
              (fun j => x4 (ix1 j)) (fun j q => x5 (ix2 j q)) (fun q => x6 (ix1 q)) k)
          + rowShiftScale (fun c => x0 (ix2 p c)) (fun k => x1 (ix2 p k)) (fun k j => x2 (ix2 k j)) (fun k j => x3 (ix2 k j))
              (fun j => x4 (ix1 j)) (fun j q => x5 (ix2 j q)) (fun q => x6 (ix1 q)) (shiftCol k) := by
  unfold transformedBlock
  refine (addf_apply _ _ _).trans (congrArg₂ (· + ·) ?_ ?_)
  · refine (mulf_apply _ _ _).trans (congrArg₂ (· * ·) ?_ ?_)
    · exact oddHalf_at x0 p k
    · exact congrArg Ideal.exp (pay5_at x0 x1 x2 x3 x4 x5 x6 p k)
  · exact (slice2_axis1_apply 256 _ _ p k (shiftCol k) rfl).trans (pay4_at x0 x1 x2 x3 x4 x5 x6 p (shiftCol k))

/-- The output block: the conditioning half and the transformed half interleaved again. -/
theorem pay6_eq : k0_pay6 (F := Ideal) x0 x1 x2 x3 x4 x5 x6
    = shapeCast S1024x512
        (concatenate S1024x256x2 2
          [⟨S1024x256x1, shapeCast S1024x256x1 (k0_pay3 (F := Ideal) x0) Facts₀.shapeCasts_S1024x256_S1024x256x1⟩,
           ⟨S1024x256x1, shapeCast S1024x256x1 (transformedBlock x0 x1 x2 x3 x4 x5 x6) Facts₀.shapeCasts_S1024x256_S1024x256x1⟩]
          Facts₀.concatenates_S1024x256x1_S1024x256x1_S1024x256x2_d2)
        Facts₀.shapeCasts_S1024x256x2_S1024x512 := rfl

/-- Regrouping 256 pairs back into a row of 512: column c is entry (c / 2, c % 2). -/
theorem regroup_at (v : FVec Ideal S1024x256x2 .f32) (p : Fin 1024) (c : Fin 512) (k : Fin 256) (e : Fin 2)
    (hc : c.val = 2 * k.val + e.val) :
    shapeCast S1024x512 v Facts₀.shapeCasts_S1024x256x2_S1024x512 (ix2 p c) = v (ix3 p k e) := by
  refine shapeCast_apply _ _ (ix2 p c) (ix3 p k e) ?_
  rw [Shape.rowMajor_val_two, Shape.rowMajor_val_three]
  show (p.val * 256 + k.val) * 2 + e.val = p.val * 512 + c.val
  omega

/-- Two [1024, 256, 1] blocks joined along the last axis: the first at last coordinate 0 … -/
theorem join_at_zero (a b : FVec Ideal S1024x256x1 .f32) (p : Fin 1024) (k : Fin 256) :
    concatenate S1024x256x2 2 [⟨S1024x256x1, a⟩, ⟨S1024x256x1, b⟩] Facts₀.concatenates_S1024x256x1_S1024x256x1_S1024x256x2_d2
        (ix3 p k (0 : Fin 2)) = a (ix3 p k (0 : Fin 1)) :=
  concatenate_pair_apply_left _ a b _ (ix3 p k (0 : Fin 2)) rfl (ix3 p k (0 : Fin 1)) fun ax => by
    match ax with
    | ⟨0, _⟩ => rfl
    | ⟨1, _⟩ => rfl
    | ⟨2, _⟩ => rfl

/-- … the second at last coordinate 1. -/
theorem join_at_one (a b : FVec Ideal S1024x256x1 .f32) (p : Fin 1024) (k : Fin 256) :
    concatenate S1024x256x2 2 [⟨S1024x256x1, a⟩, ⟨S1024x256x1, b⟩] Facts₀.concatenates_S1024x256x1_S1024x256x1_S1024x256x2_d2
        (ix3 p k (1 : Fin 2)) = b (ix3 p k (0 : Fin 1)) :=
  concatenate_pair_apply_right _ a b _ (ix3 p k (1 : Fin 2)) rfl rfl (ix3 p k (0 : Fin 1))
    (fun ax hne => by
      match ax with
      | ⟨0, _⟩ => rfl
      | ⟨1, _⟩ => rfl
      | ⟨2, _⟩ => exact absurd rfl hne)
    rfl

/-- The output block at an even column is the input there. -/
theorem pay6_at_even (p : Fin 1024) (c : Fin 512) (k : Fin 256) (hc : c.val = 2 * k.val) :
    k0_pay6 (F := Ideal) x0 x1 x2 x3 x4 x5 x6 (ix2 p c) = x0 (ix2 p c) := by
  rw [pay6_eq]
  refine (regroup_at _ p c k 0 hc).trans ?_
  refine (join_at_zero _ _ p k).trans ?_
  refine (addLast_at _ _ p k 0).trans ?_
  refine (pay3_at x0 p k).trans (congrArg x0 ?_)
  exact congrArg (ix2 p) (Fin.ext hc.symm)

/-- The output block at an odd column is the input there, scaled and shifted. -/
theorem pay6_at_odd (p : Fin 1024) (c : Fin 512) (k : Fin 256) (hc : c.val = 2 * k.val + 1) :
    k0_pay6 (F := Ideal) x0 x1 x2 x3 x4 x5 x6 (ix2 p c)
      = x0 (ix2 p c)
          * Ideal.exp (rowLogScale (fun c => x0 (ix2 p c)) (fun k => x1 (ix2 p k)) (fun k j => x2 (ix2 k j)) (fun k j => x3 (ix2 k j))
              (fun j => x4 (ix1 j)) (fun j q => x5 (ix2 j q)) (fun q => x6 (ix1 q)) k)
          + rowShiftScale (fun c => x0 (ix2 p c)) (fun k => x1 (ix2 p k)) (fun k j => x2 (ix2 k j)) (fun k j => x3 (ix2 k j))
              (fun j => x4 (ix1 j)) (fun j q => x5 (ix2 j q)) (fun q => x6 (ix1 q)) (shiftCol k) := by
  rw [pay6_eq]
  refine (regroup_at _ p c k 1 hc).trans ?_
  refine (join_at_one _ _ p k).trans ?_
  refine (addLast_at _ _ p k 0).trans ?_
  have hco : oddCol k = c := Fin.ext hc.symm
  rw [transformedBlock_at, hco]

/-- The output block at (p, q) is the output of row p at q. -/
theorem pay6_at (p : Fin 1024) (q : Fin 512) :
    k0_pay6 (F := Ideal) x0 x1 x2 x3 x4 x5 x6 (ix2 p q)
      = rowOut (fun c => x0 (ix2 p c)) (fun k => x1 (ix2 p k)) (fun k j => x2 (ix2 k j)) (fun k j => x3 (ix2 k j))
          (fun j => x4 (ix1 j)) (fun j q => x5 (ix2 j q)) (fun q => x6 (ix1 q)) q := by
  unfold rowOut
  have hq : q.val < 512 := q.isLt
  by_cases h : q.val % 2 = 0
  · rw [if_pos h]
    exact pay6_at_even x0 x1 x2 x3 x4 x5 x6 p q (pairOf q) (by show q.val = 2 * (q.val / 2); omega)
  · rw [if_neg h]
    exact pay6_at_odd x0 x1 x2 x3 x4 x5 x6 p q (pairOf q) (by show q.val = 2 * (q.val / 2) + 1; omega)

/-- The lane sum of a [1024, 256] block at p is the sum of row p. -/
theorem pay1_at (v : FVec Ideal S1024x256 .f32) (p : Fin 1024) : k0_pay1 (F := Ideal) v (ix1 p) = ∑ k : Fin 256, v (ix2 p k) := by
  unfold k0_pay1
  refine (Ideal.multiReduction_add_single v 0x00000000#32 _ _ _ (ix1 p)).trans ?_
  refine Finset.sum_congr rfl fun k _ => congrArg v ?_
  funext a
  refine Fin.ext ?_
  match a with
  | ⟨0, _⟩ => rfl
  | ⟨1, _⟩ => rfl

end Outputs

end Cert.Coupling.Body

end
-- ==== Proof.PayloadAt.lean ====
/-
  What the kernel body leaves in its two output blocks, read at an index, as the row functions of the specification:
  the body acts row by row on its input blocks, row p of the x block (width 512) and of the context block (width 128)
  against the whole weight blocks.
-/
import proofs.«418403_j38010460569904_3_alg».proof.Proof.Gen.KernelIdeal.Frame
import proofs.«418403_j38010460569904_3_alg».proof.Proof.Spec
import proofs.«418403_j38010460569904_3_alg».proof.Proof.PayloadAtLemmas
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Coupling.Body

open Cert.KernelIdeal Cert.KernelIdeal.Gen Idealize.ShloMosaic Idealize.ShloMosaic.ValueIdx Cert.Coupling

variable (x0 : Vec Ideal S1024x512 .f32) (x1 : Vec Ideal S1024x128 .f32) (x2 : Vec Ideal S256x2048 .bf16)
  (x3 : Vec Ideal S128x2048 .bf16) (x4 : Vec Ideal S2048 .f32) (x5 : Vec Ideal S2048x512 .bf16) (x6 : Vec Ideal S512 .f32)

/-- The y block at (p, q) is the row function of row p of the blocks, at column q. -/
theorem out0_7_at (p : Fin 1024) (q : Fin 512) :
    out0_7 x0 x1 x2 x3 x4 x5 x6 (ix2 p q)
      = rowOut (fun c => x0 (ix2 p c)) (fun k => x1 (ix2 p k)) (fun k j => x2 (ix2 k j)) (fun k j => x3 (ix2 k j))
          (fun j => x4 (ix1 j)) (fun j q => x5 (ix2 j q)) (fun q => x6 (ix1 q)) q := by
  unfold out0_7
  rw [View.canon_unit_zero off2_zero]
  simp only [View.ld_unit_zero (S := S1024x512) off2_zero, View.ld_unit_zero (S := S1024x128) off2_zero,
    View.ld_unit_zero (S := S256x2048) off2_zero, View.ld_unit_zero (S := S128x2048) off2_zero,
    View.ld_unit_zero (S := S2048) off1_zero, View.ld_unit_zero (S := S2048x512) off2_zero,
    View.ld_unit_zero (S := S512) off1_zero]
  exact pay6_at x0 x1 x2 x3 x4 x5 x6 p q

/-- The log-determinant block at p is the row's log-determinant. -/
theorem out0_8_at (p : Fin 1024) :
    out0_8 x0 x1 x2 x3 x4 x5 x6 (ix1 p)
      = rowLogDet (fun c => x0 (ix2 p c)) (fun k => x1 (ix2 p k)) (fun k j => x2 (ix2 k j)) (fun k j => x3 (ix2 k j))
          (fun j => x4 (ix1 j)) (fun j q => x5 (ix2 j q)) (fun q => x6 (ix1 q)) := by
  unfold out0_8
  rw [View.canon_unit_zero off1_zero]
  simp only [View.ld_unit_zero (S := S1024x512) off2_zero, View.ld_unit_zero (S := S1024x128) off2_zero,
    View.ld_unit_zero (S := S256x2048) off2_zero, View.ld_unit_zero (S := S128x2048) off2_zero,
    View.ld_unit_zero (S := S2048) off1_zero, View.ld_unit_zero (S := S2048x512) off2_zero,
    View.ld_unit_zero (S := S512) off1_zero]
  unfold rowLogDet
  exact (pay1_at _ p).trans (Finset.sum_congr rfl fun k _ => pay5_at x0 x1 x2 x3 x4 x5 x6 p k)

end Cert.Coupling.Body

end
-- ==== Proof.KernelValue.lean ====
/-
  From the kernel's blocks to its whole output arrays.

  The grid has 128 points; point t works on rows 1024·t … 1024·t + 1023. Its x block and its context block are those
  rows of x and of the context, its weight and bias blocks are the whole weight and bias arrays (the two row blocks of
  the first weight matrix and the second weight matrix having been narrowed in format beforehand, which changes no
  extended real), and what it writes back are those rows of the two results. Since the layer acts row by row, row p of
  the blocks at point t gives row 1024·t + p of the output and of the log-determinant; the 128 blocks tile the 131072
  rows, so after the run the two result arrays are the specification's functions of the six arguments.
-/
import proofs.«418403_j38010460569904_3_alg».proof.Proof.Gen.KernelIdeal.Value
import proofs.«418403_j38010460569904_3_alg».proof.Proof.PayloadAt
import proofs.«418403_j38010460569904_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.Coupling.KernelSide

open Cert.KernelIdeal Cert.KernelIdeal.Gen Idealize.ShloMosaic Idealize.ShloMosaic.TcCoe Idealize.SL.Sem
open Idealize.ShloMosaic.ValueIdx Cert.Coupling
open Idealize.ShloMosaic.Pipeline (Dat)

variable (m : (ℓ : Loc nD τ sig) → Buf (Elt Ideal) ℓ) (ρ : Dev nD → PrngReg)

/-- The block index of each window at a grid point, decided over the 128 points: the x block, the context block and
    the two output blocks move with the point along the rows; the weight and bias blocks are the whole arrays. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 1) = t.val :=
  (by decide +kernel : ∀ t : Fin grid0.N, _)

/-- A grid point is below 128. -/
theorem point_lt (t : Fin cfg0.N) : t.val < 128 := lt_of_lt_of_eq t.isLt N_0

/-! ## Each input block read at an index -/

/-- Row p of the x block at point t is row 1024·t + p of x. -/
theorem xblock_apply (c : Dev nD) (t : Fin cfg0.N) (p : Fin 1024) (q : Fin 512) (r : Fin 131072)
    (hr : r.val = 1024 * t.val + p.val) :
    (iblk m c 0 t : Vec Ideal S1024x512 .f32) (ix2 p q)
      = (m ((c.tc : Thread nD τ).loc main_arg0) : SX.Idx → EReal) (ix2 r q) := by
  obtain ⟨e0, e1, -⟩ := blockIndex t
  rw [← V_main_arg0 m c]
  show V m c main_arg0 (((cfg0.win 0).blk t).view.emb (ix2 p q)) = V m c main_arg0 (ix2 r q)
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * q.val = q.val; rw [e1]; omega

/-- Row p of the context block at point t is row 1024·t + p of the context. -/
theorem ctxblock_apply (c : Dev nD) (t : Fin cfg0.N) (p : Fin 1024) (k : Fin 128) (r : Fin 131072)
    (hr : r.val = 1024 * t.val + p.val) :
    (iblk m c 1 t : Vec Ideal S1024x128 .f32) (ix2 p k)
      = (m ((c.tc : Thread nD τ).loc main_arg1) : SCtx.Idx → EReal) (ix2 r k) := by
  obtain ⟨-, -, e0, e1, -⟩ := blockIndex t
  rw [← V_main_arg1 m c]
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 1024 + 1 * p.val = r.val; rw [e0, hr]; omega
  | ⟨1, _⟩ => show win0_1.index t (1 : Fin 2) * 128 + 1 * k.val = k.val; rw [e1]; omega

/-- The first bias block is the whole first bias. -/
theorem b1block_apply (c : Dev nD) (t : Fin cfg0.N) (j : Fin 2048) :
    (iblk m c 4 t : Vec Ideal S2048 .f32) (ix1 j)
      = (m ((c.tc : Thread nD τ).loc main_arg3) : SB1.Idx → EReal) (ix1 j) := by
  obtain ⟨-, -, -, -, -, -, -, -, e0, -⟩ := blockIndex t
  rw [← V_main_arg3 m c]
  show V m c main_arg3 (((cfg0.win 4).blk t).view.emb (ix1 j)) = V m c main_arg3 (ix1 j)
  refine congrArg _ (funext fun a => Fin.ext ?_)
  match a with
  | ⟨0, _⟩ => show win0_4.index t (0 : Fin 1) * 2048 + 1 * j.val = j.val; rw [e0]; omega

/-- The second bias block is the whole second bias. -/
theorem b2block_apply (c : Dev nD) (t : Fin cfg0.N) (q : Fin 512) :
    (iblk m c 6 t : Vec Ideal S512 .f32) (ix1 q)
      = (m ((c.tc : Thread nD τ).loc main_arg5) : SB2.Idx → EReal) (ix1 q) := by
  obtain ⟨-, -, -, -, -, -, -, -, -, -, -, e0, -⟩ := blockIndex t
  rw [← V_main_arg5 m c]
  show V m c main_arg5 (((cfg0.win 6).blk t).view.emb (ix1 q)) = V m c main_arg5 (ix1 q)
  refine congrArg _ (funext fun a => Fin.ext ?_)
  match a with
  | ⟨0, _⟩ => show win0_6.index t (0 : Fin 1) * 512 + 1 * q.val = q.val; rw [e0]; omega

/-! ## The three arrays the host prepares before the region -/

/-- The array behind window 2: the first 256 rows of the first weight matrix (a narrowing of format is the identity on
    extended reals). -/
theorem condWeights_apply (c : Dev nD) (k : Fin 256) (j : Fin 2048) :
    (V m c main_v1 : S256x2048.Idx → EReal) (ix2 k j)
      = (m ((c.tc : Thread nD τ).loc main_arg2) : SW1.Idx → EReal) (ix2 (condRow k) j) := by
  have e : @Eq (FVec Ideal S256x2048 .bf16) (V m c main_v1)
      (truncf (F := Ideal) (s := S256x2048) (φ := .f32) .bf16
        (extractStridedSlice (s := S384x2048) (α := Ideal .f32) S256x2048 ![0, 0] (V m c main_arg2) slices_S384x2048_S256x2048_0_0)
        bitsLt_bf16_f32) := by
    dsimp only [Gen.V, Gen.hostOps0]; after_results
  rw [e, V_main_arg2 m c]
  show extractStridedSlice (s := S384x2048) (α := Ideal .f32) S256x2048 ![0, 0] (m ((c.tc : Thread nD τ).loc main_arg2))
    slices_S384x2048_S256x2048_0_0 (ix2 k j) = _
  exact slice2_axis0_apply 0 _ _ k j (condRow k) (by simp [condRow])

/-- The array behind window 3: rows 256 … 383 of the first weight matrix. -/
theorem ctxWeights_apply (c : Dev nD) (k : Fin 128) (j : Fin 2048) :
    (V m c main_v3 : S128x2048.Idx → EReal) (ix2 k j)
      = (m ((c.tc : Thread nD τ).loc main_arg2) : SW1.Idx → EReal) (ix2 (ctxRow k) j) := by
  have e : @Eq (FVec Ideal S128x2048 .bf16) (V m c main_v3)
      (truncf (F := Ideal) (s := S128x2048) (φ := .f32) .bf16
        (extractStridedSlice (s := S384x2048) (α := Ideal .f32) S128x2048 ![256, 0] (V m c main_arg2) slices_S384x2048_S128x2048_256_0)
        bitsLt_bf16_f32) := by
    dsimp only [Gen.V, Gen.hostOps0]; after_results
  rw [e, V_main_arg2 m c]
  show extractStridedSlice (s := S384x2048) (α := Ideal .f32) S128x2048 ![256, 0] (m ((c.tc : Thread nD τ).loc main_arg2))
    slices_S384x2048_S128x2048_256_0 (ix2 k j) = _
  exact slice2_axis0_apply 256 _ _ k j (ctxRow k) (by simp [ctxRow])

/-- The array behind window 5: the second weight matrix. -/
theorem outWeights_apply (c : Dev nD) (j : Fin 2048) (q : Fin 512) :
    (V m c main_v4 : S2048x512.Idx → EReal) (ix2 j q)
      = (m ((c.tc : Thread nD τ).loc main_arg4) : SW2.Idx → EReal) (ix2 j q) := by
  have e : @Eq (FVec Ideal S2048x512 .bf16) (V m c main_v4)
      (truncf (F := Ideal) (s := S2048x512) (φ := .f32) .bf16 (V m c main_arg4) bitsLt_bf16_f32) := by
    dsimp only [Gen.V, Gen.hostOps0]; after_results
  rw [e, V_main_arg4 m c]
  exact truncf_apply _ _ _

/-- The first weight block is the first 256 rows of the first weight matrix. -/
theorem w1ablock_apply (c : Dev nD) (t : Fin cfg0.N) (k : Fin 256) (j : Fin 2048) :
    (iblk m c 2 t : Vec Ideal S256x2048 .bf16) (ix2 k j)
      = (m ((c.tc : Thread nD τ).loc main_arg2) : SW1.Idx → EReal) (ix2 (condRow k) j) := by
  obtain ⟨-, -, -, -, e0, e1, -⟩ := blockIndex t
  rw [← condWeights_apply m c k j]
  show V m c main_v1 (((cfg0.win 2).blk t).view.emb (ix2 k j)) = V m c main_v1 (ix2 k j)
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 2048 + 1 * j.val = j.val; rw [e1]; omega

/-- The second weight block is rows 256 … 383 of the first weight matrix. -/
theorem w1bblock_apply (c : Dev nD) (t : Fin cfg0.N) (k : Fin 128) (j : Fin 2048) :
    (iblk m c 3 t : Vec Ideal S128x2048 .bf16) (ix2 k j)
      = (m ((c.tc : Thread nD τ).loc main_arg2) : SW1.Idx → EReal) (ix2 (ctxRow k) j) := by
  obtain ⟨-, -, -, -, -, -, e0, e1, -⟩ := blockIndex t
  rw [← ctxWeights_apply m c k j]
  show V m c main_v3 (((cfg0.win 3).blk t).view.emb (ix2 k j)) = V m c main_v3 (ix2 k j)
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 2048 + 1 * j.val = j.val; rw [e1]; omega

/-- The third weight block is the second weight matrix. -/
theorem w2block_apply (c : Dev nD) (t : Fin cfg0.N) (j : Fin 2048) (q : Fin 512) :
    (iblk m c 5 t : Vec Ideal S2048x512 .bf16) (ix2 j q)
      = (m ((c.tc : Thread nD τ).loc main_arg4) : SW2.Idx → EReal) (ix2 j q) := by
  obtain ⟨-, -, -, -, -, -, -, -, -, e0, e1, -⟩ := blockIndex t
  rw [← outWeights_apply m c j q]
  show V m c main_v4 (((cfg0.win 5).blk t).view.emb (ix2 j q)) = V m c main_v4 (ix2 j q)
  refine congrArg _ (funext fun a => Fin.ext ?_)
  match a with
  | ⟨0, _⟩ => show win0_5.index t (0 : Fin 2) * 2048 + 1 * j.val = j.val; rw [e0]; omega
  | ⟨1, _⟩ => show win0_5.index t (1 : Fin 2) * 512 + 1 * q.val = q.val; rw [e1]; omega

/-! ## What a point writes back -/

section Bridge
variable (x0 : Vec Ideal S1024x512 .f32) (x1 : Vec Ideal S1024x128 .f32) (x2 : Vec Ideal S256x2048 .bf16)
  (x3 : Vec Ideal S128x2048 .bf16) (x4 : Vec Ideal S2048 .f32) (x5 : Vec Ideal S2048x512 .bf16) (x6 : Vec Ideal S512 .f32)
  (X : SX.Idx → EReal) (C : SCtx.Idx → EReal) (W1 : SW1.Idx → EReal) (B1 : SB1.Idx → EReal)
  (W2 : SW2.Idx → EReal) (B2 : SB2.Idx → EReal)

/-- When row p of the x and context blocks is row r of the arrays and the weight and bias blocks are the arrays, the y
    block at (p, q) is the output at (r, q). -/
theorem yblock_at (p : Fin 1024) (q : Fin 512) (r : Fin 131072)
    (h0 : ∀ c, x0 (ix2 p c) = X (ix2 r c)) (h1 : ∀ k, x1 (ix2 p k) = C (ix2 r k))
    (h2 : ∀ k j, x2 (ix2 k j) = W1 (ix2 (condRow k) j)) (h3 : ∀ k j, x3 (ix2 k j) = W1 (ix2 (ctxRow k) j))
    (h4 : ∀ j, x4 (ix1 j) = B1 (ix1 j)) (h5 : ∀ j q, x5 (ix2 j q) = W2 (ix2 j q)) (h6 : ∀ q, x6 (ix1 q) = B2 (ix1 q)) :
    out0_7 x0 x1 x2 x3 x4 x5 x6 (ix2 p q) = outAt X C W1 B1 W2 B2 r q := by
  have e0 : (fun c => x0 (ix2 p c)) = fun c => X (ix2 r c) := funext h0
  have e1 : (fun k => x1 (ix2 p k)) = fun k => C (ix2 r k) := funext h1
  have e2 : (fun k j => x2 (ix2 k j)) = fun k j => W1 (ix2 (condRow k) j) := funext fun k => funext fun j => h2 k j
  have e3 : (fun k j => x3 (ix2 k j)) = fun k j => W1 (ix2 (ctxRow k) j) := funext fun k => funext fun j => h3 k j
  have e4 : (fun j => x4 (ix1 j)) = fun j => B1 (ix1 j) := funext h4
  have e5 : (fun j q => x5 (ix2 j q)) = fun j q => W2 (ix2 j q) := funext fun j => funext fun q => h5 j q
  have e6 : (fun q => x6 (ix1 q)) = fun q => B2 (ix1 q) := funext h6
  rw [Body.out0_7_at, e0, e1, e2, e3, e4, e5, e6]
  rfl

/-- Under the same hypotheses the log-determinant block at p is the log-determinant of row r. -/
theorem ldblock_at (p : Fin 1024) (r : Fin 131072)
    (h0 : ∀ c, x0 (ix2 p c) = X (ix2 r c)) (h1 : ∀ k, x1 (ix2 p k) = C (ix2 r k))
    (h2 : ∀ k j, x2 (ix2 k j) = W1 (ix2 (condRow k) j)) (h3 : ∀ k j, x3 (ix2 k j) = W1 (ix2 (ctxRow k) j))
    (h4 : ∀ j, x4 (ix1 j) = B1 (ix1 j)) (h5 : ∀ j q, x5 (ix2 j q) = W2 (ix2 j q)) (h6 : ∀ q, x6 (ix1 q) = B2 (ix1 q)) :
    out0_8 x0 x1 x2 x3 x4 x5 x6 (ix1 p) = logDetAt X C W1 B1 W2 B2 r := by
  have e0 : (fun c => x0 (ix2 p c)) = fun c => X (ix2 r c) := funext h0
  have e1 : (fun k => x1 (ix2 p k)) = fun k => C (ix2 r k) := funext h1
  have e2 : (fun k j => x2 (ix2 k j)) = fun k j => W1 (ix2 (condRow k) j) := funext fun k => funext fun j => h2 k j
  have e3 : (fun k j => x3 (ix2 k j)) = fun k j => W1 (ix2 (ctxRow k) j) := funext fun k => funext fun j => h3 k j
  have e4 : (fun j => x4 (ix1 j)) = fun j => B1 (ix1 j) := funext h4
  have e5 : (fun j q => x5 (ix2 j q)) = fun j q => W2 (ix2 j q) := funext fun j => funext fun q => h5 j q
  have e6 : (fun q => x6 (ix1 q)) = fun q => B2 (ix1 q) := funext h6
  rw [Body.out0_8_at, e0, e1, e2, e3, e4, e5, e6]
  rfl

end Bridge

/-- The row of the arrays that row p of the blocks at point t is. -/
def rowOf (t : Fin cfg0.N) (p : Fin 1024) : Fin 131072 :=
  ⟨1024 * t.val + p.val, by have := point_lt t; have := p.isLt; omega⟩

/-- The output array as a function of the six argument arrays as launched. -/
abbrev yArr (c : Dev nD) : SX.Idx → EReal :=
  Cert.Coupling.out (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The log-determinant array as a function of the six argument arrays as launched. -/
abbrev ldArr (c : Dev nD) : SLd.Idx → EReal :=
  Cert.Coupling.logDet (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- Where an element of the y block at point t sits in the array. -/
theorem yblock_emb (t : Fin cfg0.N) (p : Fin 1024) (q : Fin 512) :
    ((cfg0.win 7).blk t).view.emb (ix2 p q) = (ix2 (rowOf t p) q : S131072x512.Idx) := by
  obtain ⟨-, -, -, -, -, -, -, -, -, -, -, -, e0, e1, -⟩ := blockIndex t
  refine funext fun a => Fin.ext ?_
  match a with
  | ⟨0, _⟩ => show win0_7.index t (0 : Fin 2) * 1024 + 1 * p.val = 1024 * t.val + p.val; rw [e0]; omega
  | ⟨1, _⟩ => show win0_7.index t (1 : Fin 2) * 512 + 1 * q.val = q.val; rw [e1]; omega

/-- Where an element of the log-determinant block at point t sits in the array. -/
theorem ldblock_emb (t : Fin cfg0.N) (p : Fin 1024) :
    ((cfg0.win 8).blk t).view.emb (ix1 p) = (ix1 (rowOf t p) : S131072.Idx) := by
  obtain ⟨-, -, -, -, -, -, -, -, -, -, -, -, -, -, e0⟩ := blockIndex t
  refine funext fun a => Fin.ext ?_
  match a with
  | ⟨0, _⟩ => show win0_8.index t (0 : Fin 1) * 1024 + 1 * p.val = 1024 * t.val + p.val; rw [e0]; omega

/-- What point t writes back to the y array is block t of the output array. -/
theorem flushed7_eq (c : Dev nD) (t : Fin cfg0.N) :
    (dats m 0 c).flushed 7 t = ((cfg0.win 7).blk t).view.read (Elt Ideal) (yArr m c) := by
  rw [Value.flushed7]
  refine funext fun (y : S1024x512.Idx) => ?_
  obtain ⟨p, q, rfl⟩ : ∃ p q, y = ix2 p q := ⟨y 0, y 1, eq_ix2 y⟩
  show out0_7 (iblk m c 0 t) (iblk m c 1 t) (iblk m c 2 t) (iblk m c 3 t) (iblk m c 4 t) (iblk m c 5 t) (iblk m c 6 t) (ix2 p q)
    = yArr m c (((cfg0.win 7).blk t).view.emb (ix2 p q))
  rw [yblock_emb t p q]
  exact yblock_at (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) p q (rowOf t p)
    (fun j => xblock_apply m c t p j (rowOf t p) rfl) (fun k => ctxblock_apply m c t p k (rowOf t p) rfl)
    (fun k j => w1ablock_apply m c t k j) (fun k j => w1bblock_apply m c t k j)
    (fun j => b1block_apply m c t j) (fun j q => w2block_apply m c t j q) (fun q => b2block_apply m c t q)

/-- What point t writes back to the log-determinant array is block t of the log-determinant array. -/
theorem flushed8_eq (c : Dev nD) (t : Fin cfg0.N) :
    (dats m 0 c).flushed 8 t = ((cfg0.win 8).blk t).view.read (Elt Ideal) (ldArr m c) := by
  rw [Value.flushed8]
  refine funext fun (y : S1024.Idx) => ?_
  obtain ⟨p, rfl⟩ : ∃ p, y = ix1 p := ⟨y 0, eq_ix1 y⟩
  show out0_8 (iblk m c 0 t) (iblk m c 1 t) (iblk m c 2 t) (iblk m c 3 t) (iblk m c 4 t) (iblk m c 5 t) (iblk m c 6 t) (ix1 p)
    = ldArr m c (((cfg0.win 8).blk t).view.emb (ix1 p))
  rw [ldblock_emb t p]
  exact ldblock_at (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) p (rowOf t p)
    (fun j => xblock_apply m c t p j (rowOf t p) rfl) (fun k => ctxblock_apply m c t p k (rowOf t p) rfl)
    (fun k j => w1ablock_apply m c t k j) (fun k j => w1bblock_apply m c t k j)
    (fun j => b1block_apply m c t j) (fun j q => w2block_apply m c t j q) (fun q => b2block_apply m c t q)

/-! ## The blocks cover the arrays -/

/-- An index of the y array is in point t's block iff each coordinate is in the block's range on its axis. -/
theorem mem_yblock (t : Fin cfg0.N) (i : S131072x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v5_0).slice (win0_7.rect t)).set ↔ _
  rw [View.set_slice_whole, Rect.mem_set_unit]
  exact Iff.rfl

/-- An index of the log-determinant array is in point t's block iff its coordinate is in the block's range. -/
theorem mem_ldblock (t : Fin cfg0.N) (i : S131072.Idx) :
    i ∈ ((cfg0.win 8).blk t).view.set ↔ ∀ a : Fin 1, win0_8.index t a * S1024.size a ≤ (i a).val
      ∧ (i a).val < win0_8.index t a * S1024.size a + S1024.size a := by
  show i ∈ ((View.whole main_v5_1).slice (win0_8.rect t)).set ↔ _
  rw [View.set_slice_whole, Rect.mem_set_unit]
  exact Iff.rfl

/-- The point whose blocks hold row r: r / 1024. -/
def pointOf (r : Nat) (hr : r < 131072) : Fin cfg0.N :=
  ⟨r / 1024, lt_of_lt_of_eq (by omega : r / 1024 < 128) N_0.symm⟩

/-- Every index of the y array is in the block of the point that holds its row. -/
theorem cover7 (i : S131072x512.Idx) :
    ∃ t : Fin cfg0.N, (cfg0.win 7).flush t = true ∧ i ∈ ((cfg0.win 7).blk t).view.set := by
  have hi0 : (i 0).val < 131072 := (i 0).isLt
  have hi1 : (i 1).val < 512 := (i 1).isLt
  refine ⟨pointOf (i 0).val hi0, flush0_7 _, ?_⟩
  obtain ⟨-, -, -, -, -, -, -, -, -, -, -, -, e0, e1, -⟩ := blockIndex (pointOf (i 0).val hi0)
  have ev : (pointOf (i 0).val hi0).val = (i 0).val / 1024 := rfl
  rw [mem_yblock]
  intro a
  match a with
  | ⟨0, _⟩ =>
    show win0_7.index (pointOf (i 0).val hi0) (0 : Fin 2) * 1024 ≤ (i 0).val
      ∧ (i 0).val < win0_7.index (pointOf (i 0).val hi0) (0 : Fin 2) * 1024 + 1024
    rw [e0, ev]; omega
  | ⟨1, _⟩ =>
    show win0_7.index (pointOf (i 0).val hi0) (1 : Fin 2) * 512 ≤ (i 1).val
      ∧ (i 1).val < win0_7.index (pointOf (i 0).val hi0) (1 : Fin 2) * 512 + 512
    rw [e1]; omega

/-- Every index of the log-determinant array is in the block of the point that holds its row. -/
theorem cover8 (i : S131072.Idx) :
    ∃ t : Fin cfg0.N, (cfg0.win 8).flush t = true ∧ i ∈ ((cfg0.win 8).blk t).view.set := by
  have hi0 : (i 0).val < 131072 := (i 0).isLt
  refine ⟨pointOf (i 0).val hi0, flush0_8 _, ?_⟩
  obtain ⟨-, -, -, -, -, -, -, -, -, -, -, -, -, -, e0⟩ := blockIndex (pointOf (i 0).val hi0)
  have ev : (pointOf (i 0).val hi0).val = (i 0).val / 1024 := rfl
  rw [mem_ldblock]
  intro a
  match a with
  | ⟨0, _⟩ =>
    show win0_8.index (pointOf (i 0).val hi0) (0 : Fin 1) * 1024 ≤ (i 0).val
      ∧ (i 0).val < win0_8.index (pointOf (i 0).val hi0) (0 : Fin 1) * 1024 + 1024
    rw [e0, ev]; omega

/-! ## The arrays after the run -/

/-- The y array ends holding the output array. -/
theorem final7 (c : Dev nD) : (dats m 0 c).arrAt 7 cfg0.N = yArr m c :=
  (dats m 0 c).arrAt_eq_of_cover 7 (yArr m c) (fun t _ => flushed7_eq m c t) cover7

/-- The log-determinant array ends holding the log-determinant array of the specification. -/
theorem final8 (c : Dev nD) : (dats m 0 c).arrAt 8 cfg0.N = ldArr m c :=
  (dats m 0 c).arrAt_eq_of_cover 8 (ldArr m c) (fun t _ => flushed8_eq m c t) cover8

/-- The kernel's run: the two result arrays at the specification's functions of the six arguments, the arguments unchanged. -/
theorem run : θ_run (defs (F := Ideal)) (onTc (τ := τ) (main (F := Ideal))) ⟨m, fun _ => 0, ρ⟩ fun r => ∀ c : Dev nD,
      r.2.mem ((c.tc : Thread nD τ).loc main_v5_0)
        = Cert.Coupling.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v5_1)
        = Cert.Coupling.logDet (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final7 m c), (h c).2.1.trans (final8 m c), (h c).2.2⟩)
    (Cert.KernelIdeal.Value.run_blocks (F := Ideal) m ρ)

end Cert.Coupling.KernelSide

end
-- ==== Proof.RefRun.lean ====
/-
  The reference program's run. Its @main is a straight line of fifty-two host operations (the call of the outlined
  rectifier unfolded at its call site into its three operations), so every weakly fair execution terminates with each
  buffer at the operations' fold over the launch contents. The two result buffers are then read as stages:

    colIdx tbl   the column numbers of a table, wrapped into [0, 512) the way jnp indexing wraps negative indices
                 (tbl + 512 where tbl < 0, else tbl), as a [256, 1] array of start indices
    xEven, xOdd  the gathers of x's columns at the even and the odd table
    hid          max (concat (xEven, ctx) · W1 + b1, 0)
    st           hid · W2 + b2
    sAct         tanh (st[:, 0:256]) · 5
    refY         x with its odd-table columns overwritten by xOdd · exp sAct + st[:, 256:512]
    refLD        0 + the row sums of sAct
-/
import proofs.«418403_j38010460569904_3_alg».proof.Proof.Gen.ReferenceIdeal
import Idealize.ShloMosaic.Lib.StableHlo.Run

noncomputable section

namespace Cert.Coupling.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations, in order; the rectifier's three at its call site. -/
abbrev ops : List (HloOp τ sig (Elt F)) :=
  [ nullary main_c (fun i => lit0 (S256.rowMajor i)),
    nullary main_c_0 (fun i => lit1 (S256.rowMajor i)),
    nullary main_c_1 (constantI S_ 32 0#32),
    unary main_c_1 main_v0 (broadcastInDim S256 ![] bcast_S_S256 : (⟨S_, .i32⟩ : BufTy).Contents (Elt F) → (⟨S256, .i32⟩ : BufTy).Contents (Elt F)),
    binary main_c main_v0 main_v1 (cmpi .slt : (⟨S256, .i32⟩ : BufTy).Contents (Elt F) → (⟨S256, .i32⟩ : BufTy).Contents (Elt F) → (⟨S256, .i1⟩ : BufTy).Contents (Elt F)),
    nullary main_c_2 (constantI S_ 32 512#32),
    unary main_c_2 main_v2 (broadcastInDim S256 ![] bcast_S_S256 : (⟨S_, .i32⟩ : BufTy).Contents (Elt F) → (⟨S256, .i32⟩ : BufTy).Contents (Elt F)),
    binary main_c main_v2 main_v3 (addi : (⟨S256, .i32⟩ : BufTy).Contents (Elt F) → (⟨S256, .i32⟩ : BufTy).Contents (Elt F) → (⟨S256, .i32⟩ : BufTy).Contents (Elt F)),
    ternary main_v1 main_v3 main_c main_v4 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v4 main_v5 (broadcastInDim S256x1 ![0] bcast_S256_S256x1_0 : (⟨S256, .i32⟩ : BufTy).Contents (Elt F) → (⟨S256x1, .i32⟩ : BufTy).Contents (Elt F)),
    binary main_arg0 main_v5 main_v6 ((fun x i => Host.gather gather_S131072x512_S256x1_S131072x256_0_1_n_n_1_1_1310721 x i) : (⟨S131072x512, .f32⟩ : BufTy).Contents (Elt F) → (⟨S256x1, .i32⟩ : BufTy).Contents (Elt F) → (⟨S131072x256, .f32⟩ : BufTy).Contents (Elt F)),
    nullary main_c_3 (constantI S_ 32 0#32),
    unary main_c_3 main_v7 (broadcastInDim S256 ![] bcast_S_S256 : (⟨S_, .i32⟩ : BufTy).Contents (Elt F) → (⟨S256, .i32⟩ : BufTy).Contents (Elt F)),
    binary main_c_0 main_v7 main_v8 (cmpi .slt : (⟨S256, .i32⟩ : BufTy).Contents (Elt F) → (⟨S256, .i32⟩ : BufTy).Contents (Elt F) → (⟨S256, .i1⟩ : BufTy).Contents (Elt F)),
    nullary main_c_4 (constantI S_ 32 512#32),
    unary main_c_4 main_v9 (broadcastInDim S256 ![] bcast_S_S256 : (⟨S_, .i32⟩ : BufTy).Contents (Elt F) → (⟨S256, .i32⟩ : BufTy).Contents (Elt F)),
    binary main_c_0 main_v9 main_v10 (addi : (⟨S256, .i32⟩ : BufTy).Contents (Elt F) → (⟨S256, .i32⟩ : BufTy).Contents (Elt F) → (⟨S256, .i32⟩ : BufTy).Contents (Elt F)),
    ternary main_v8 main_v10 main_c_0 main_v11 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v11 main_v12 (broadcastInDim S256x1 ![0] bcast_S256_S256x1_0 : (⟨S256, .i32⟩ : BufTy).Contents (Elt F) → (⟨S256x1, .i32⟩ : BufTy).Contents (Elt F)),
    binary main_arg0 main_v12 main_v13 ((fun x i => Host.gather gather_S131072x512_S256x1_S131072x256_0_1_n_n_1_1_1310721 x i) : (⟨S131072x512, .f32⟩ : BufTy).Contents (Elt F) → (⟨S256x1, .i32⟩ : BufTy).Contents (Elt F) → (⟨S131072x256, .f32⟩ : BufTy).Contents (Elt F)),
    binary main_v6 main_arg1 main_v14 ((fun a b => concatenate S131072x384 1 [⟨S131072x256, a⟩, ⟨S131072x128, b⟩] concatenates_S131072x256_S131072x128_S131072x384_d1) : (⟨S131072x256, .f32⟩ : BufTy).Contents (Elt F) → (⟨S131072x128, .f32⟩ : BufTy).Contents (Elt F) → (⟨S131072x384, .f32⟩ : BufTy).Contents (Elt F)),
    binary main_v14 main_arg2 main_v15 ((fun l r => Host.dotGeneral dot_S131072x384_S384x2048_S131072x2048_1_0_0_1_n_n none l r) : (⟨S131072x384, .f32⟩ : BufTy).Contents (Elt F) → (⟨S384x2048, .f32⟩ : BufTy).Contents (Elt F) → (⟨S131072x2048, .f32⟩ : BufTy).Contents (Elt F)),
    unary main_arg3 main_v16 (broadcastInDim S1x2048 ![1] bcast_S2048_S1x2048_1 : (⟨S2048, .f32⟩ : BufTy).Contents (Elt F) → (⟨S1x2048, .f32⟩ : BufTy).Contents (Elt F)),
    unary main_v16 main_v17 (broadcastInDim S131072x2048 ![0, 1] bcast_S1x2048_S131072x2048_0_1 : (⟨S1x2048, .f32⟩ : BufTy).Contents (Elt F) → (⟨S131072x2048, .f32⟩ : BufTy).Contents (Elt F)),
    binary main_v15 main_v17 main_v18 (addf : (⟨S131072x2048, .f32⟩ : BufTy).Contents (Elt F) → (⟨S131072x2048, .f32⟩ : BufTy).Contents (Elt F) → (⟨S131072x2048, .f32⟩ : BufTy).Contents (Elt F)),
    TRef.nullary main_call0.cst (constant S_ .f32 0x00000000#32),
    TRef.unary main_call0.cst main_call0.v0 (broadcastInDim S131072x2048 ![] bcast_S_S131072x2048),
    TRef.binary (.of main_v18) main_call0.v0 main_call0.v1 maximumf,
    binary main_v19 main_arg4 main_v20 ((fun l r => Host.dotGeneral dot_S131072x2048_S2048x512_S131072x512_1_0_0_1_n_n none l r) : (⟨S131072x2048, .f32⟩ : BufTy).Contents (Elt F) → (⟨S2048x512, .f32⟩ : BufTy).Contents (Elt F) → (⟨S131072x512, .f32⟩ : BufTy).Contents (Elt F)),
    unary main_arg5 main_v21 (broadcastInDim S1x512 ![1] bcast_S512_S1x512_1 : (⟨S512, .f32⟩ : BufTy).Contents (Elt F) → (⟨S1x512, .f32⟩ : BufTy).Contents (Elt F)),
    unary main_v21 main_v22 (broadcastInDim S131072x512 ![0, 1] bcast_S1x512_S131072x512_0_1 : (⟨S1x512, .f32⟩ : BufTy).Contents (Elt F) → (⟨S131072x512, .f32⟩ : BufTy).Contents (Elt F)),
    binary main_v20 main_v22 main_v23 (addf : (⟨S131072x512, .f32⟩ : BufTy).Contents (Elt F) → (⟨S131072x512, .f32⟩ : BufTy).Contents (Elt F) → (⟨S131072x512, .f32⟩ : BufTy).Contents (Elt F)),
    unary main_v23 main_v24 ((extractStridedSlice S131072x256 ![0, 0] · slices_S131072x512_S131072x256_0_0) : (⟨S131072x512, .f32⟩ : BufTy).Contents (Elt F) → (⟨S131072x256, .f32⟩ : BufTy).Contents (Elt F)),
    unary main_v23 main_v25 ((extractStridedSlice S131072x256 ![0, 256] · slices_S131072x512_S131072x256_0_256) : (⟨S131072x512, .f32⟩ : BufTy).Contents (Elt F) → (⟨S131072x256, .f32⟩ : BufTy).Contents (Elt F)),
    unary main_v24 main_v26 (Host.tanh : (⟨S131072x256, .f32⟩ : BufTy).Contents (Elt F) → (⟨S131072x256, .f32⟩ : BufTy).Contents (Elt F)),
    nullary main_cst (constant S_ .f32 0x40A00000#32),
    unary main_cst main_v27 (broadcastInDim S131072x256 ![] bcast_S_S131072x256 : (⟨S_, .f32⟩ : BufTy).Contents (Elt F) → (⟨S131072x256, .f32⟩ : BufTy).Contents (Elt F)),
    binary main_v26 main_v27 main_v28 (mulf : (⟨S131072x256, .f32⟩ : BufTy).Contents (Elt F) → (⟨S131072x256, .f32⟩ : BufTy).Contents (Elt F) → (⟨S131072x256, .f32⟩ : BufTy).Contents (Elt F)),
    unary main_v28 main_v29 (Host.exp : (⟨S131072x256, .f32⟩ : BufTy).Contents (Elt F) → (⟨S131072x256, .f32⟩ : BufTy).Contents (Elt F)),
    binary main_v13 main_v29 main_v30 (mulf : (⟨S131072x256, .f32⟩ : BufTy).Contents (Elt F) → (⟨S131072x256, .f32⟩ : BufTy).Contents (Elt F) → (⟨S131072x256, .f32⟩ : BufTy).Contents (Elt F)),
    binary main_v30 main_v25 main_v31 (addf : (⟨S131072x256, .f32⟩ : BufTy).Contents (Elt F) → (⟨S131072x256, .f32⟩ : BufTy).Contents (Elt F) → (⟨S131072x256, .f32⟩ : BufTy).Contents (Elt F)),
    nullary main_c_5 (constantI S_ 32 0#32),
    unary main_c_5 main_v32 (broadcastInDim S256 ![] bcast_S_S256 : (⟨S_, .i32⟩ : BufTy).Contents (Elt F) → (⟨S256, .i32⟩ : BufTy).Contents (Elt F)),
    binary main_c_0 main_v32 main_v33 (cmpi .slt : (⟨S256, .i32⟩ : BufTy).Contents (Elt F) → (⟨S256, .i32⟩ : BufTy).Contents (Elt F) → (⟨S256, .i1⟩ : BufTy).Contents (Elt F)),
    nullary main_c_6 (constantI S_ 32 512#32),
    unary main_c_6 main_v34 (broadcastInDim S256 ![] bcast_S_S256 : (⟨S_, .i32⟩ : BufTy).Contents (Elt F) → (⟨S256, .i32⟩ : BufTy).Contents (Elt F)),
    binary main_c_0 main_v34 main_v35 (addi : (⟨S256, .i32⟩ : BufTy).Contents (Elt F) → (⟨S256, .i32⟩ : BufTy).Contents (Elt F) → (⟨S256, .i32⟩ : BufTy).Contents (Elt F)),
    ternary main_v33 main_v35 main_c_0 main_v36 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v36 main_v37 (broadcastInDim S256x1 ![0] bcast_S256_S256x1_0 : (⟨S256, .i32⟩ : BufTy).Contents (Elt F) → (⟨S256x1, .i32⟩ : BufTy).Contents (Elt F)),
    ternary main_arg0 main_v37 main_v31 main_v38 ((fun x i u => Host.scatter scatter_S131072x512_S256x1_S131072x256_0_1_1_1 (fun _ b => b) x i u) : (⟨S131072x512, .f32⟩ : BufTy).Contents (Elt F) → (⟨S256x1, .i32⟩ : BufTy).Contents (Elt F) → (⟨S131072x256, .f32⟩ : BufTy).Contents (Elt F) → (⟨S131072x512, .f32⟩ : BufTy).Contents (Elt F)),
    nullary main_cst_7 (constant S_ .f32 0x00000000#32),
    binary main_v28 main_cst_7 main_v39 ((fun x v => Host.reduceAdd x v reducesTo_S131072x256_S131072_d1 h_S_) : (⟨S131072x256, .f32⟩ : BufTy).Contents (Elt F) → (⟨S_, .f32⟩ : BufTy).Contents (Elt F) → (⟨S131072, .f32⟩ : BufTy).Contents (Elt F)) ]

set_option maxRecDepth 2048 in
/-- @main is that straight line: the callee unfolded at its call, sequencing reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub ..⟩

/-- Every weakly fair execution of @main terminates, and every buffer ends at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages -/

/-- A table of column numbers wrapped into range and laid out as start indices. -/
def colIdx (tbl : (⟨S256, .i32⟩ : BufTy).Contents (Elt F)) : (⟨S256x1, .i32⟩ : BufTy).Contents (Elt F) :=
  broadcastInDim S256x1 ![0] bcast_S256_S256x1_0
    (select (cmpi .slt tbl (broadcastInDim S256 ![] bcast_S_S256 (constantI S_ 32 0#32)))
      (addi tbl (broadcastInDim S256 ![] bcast_S_S256 (constantI S_ 32 512#32))) tbl)

/-- The even columns' start indices. -/
def evenIdx : (⟨S256x1, .i32⟩ : BufTy).Contents (Elt F) := colIdx (F := F) (fun i => lit0 (S256.rowMajor i))
/-- The odd columns' start indices. -/
def oddIdx : (⟨S256x1, .i32⟩ : BufTy).Contents (Elt F) := colIdx (F := F) (fun i => lit1 (S256.rowMajor i))

section
variable (x : (⟨S131072x512, .f32⟩ : BufTy).Contents (Elt F)) (ctx : (⟨S131072x128, .f32⟩ : BufTy).Contents (Elt F))
  (W1 : (⟨S384x2048, .f32⟩ : BufTy).Contents (Elt F)) (b1 : (⟨S2048, .f32⟩ : BufTy).Contents (Elt F))
  (W2 : (⟨S2048x512, .f32⟩ : BufTy).Contents (Elt F)) (b2 : (⟨S512, .f32⟩ : BufTy).Contents (Elt F))

/-- x's even columns. -/
def xEven : (⟨S131072x256, .f32⟩ : BufTy).Contents (Elt F) :=
  Host.gather gather_S131072x512_S256x1_S131072x256_0_1_n_n_1_1_1310721 x (evenIdx (F := F))
/-- x's odd columns. -/
def xOdd : (⟨S131072x256, .f32⟩ : BufTy).Contents (Elt F) :=
  Host.gather gather_S131072x512_S256x1_S131072x256_0_1_n_n_1_1_1310721 x (oddIdx (F := F))

/-- The hidden layer after the rectifier. -/
def hid : (⟨S131072x2048, .f32⟩ : BufTy).Contents (Elt F) :=
  maximumf
    (addf (Host.dotGeneral dot_S131072x384_S384x2048_S131072x2048_1_0_0_1_n_n none
        (concatenate S131072x384 1 [⟨S131072x256, xEven x⟩, ⟨S131072x128, ctx⟩] concatenates_S131072x256_S131072x128_S131072x384_d1) W1)
      (broadcastInDim S131072x2048 ![0, 1] bcast_S1x2048_S131072x2048_0_1 (broadcastInDim S1x2048 ![1] bcast_S2048_S1x2048_1 b1)))
    (broadcastInDim S131072x2048 ![] bcast_S_S131072x2048 (constant S_ .f32 0x00000000#32))

/-- The second layer. -/
def st : (⟨S131072x512, .f32⟩ : BufTy).Contents (Elt F) :=
  addf (Host.dotGeneral dot_S131072x2048_S2048x512_S131072x512_1_0_0_1_n_n none (hid x ctx W1 b1) W2)
    (broadcastInDim S131072x512 ![0, 1] bcast_S1x512_S131072x512_0_1 (broadcastInDim S1x512 ![1] bcast_S512_S1x512_1 b2))

/-- The bounded log-scale. -/
def sAct : (⟨S131072x256, .f32⟩ : BufTy).Contents (Elt F) :=
  mulf (Host.tanh (extractStridedSlice S131072x256 ![0, 0] (st x ctx W1 b1 W2 b2) slices_S131072x512_S131072x256_0_0))
    (broadcastInDim S131072x256 ![] bcast_S_S131072x256 (constant S_ .f32 0x40A00000#32))

/-- The transformed odd columns. -/
def yOdd : (⟨S131072x256, .f32⟩ : BufTy).Contents (Elt F) :=
  addf (mulf (xOdd x) (Host.exp (sAct x ctx W1 b1 W2 b2)))
    (extractStridedSlice S131072x256 ![0, 256] (st x ctx W1 b1 W2 b2) slices_S131072x512_S131072x256_0_256)

/-- The first result: x with its odd columns overwritten. -/
def refY : (⟨S131072x512, .f32⟩ : BufTy).Contents (Elt F) :=
  Host.scatter scatter_S131072x512_S256x1_S131072x256_0_1_1_1 (fun _ b => b) x (oddIdx (F := F)) (yOdd x ctx W1 b1 W2 b2)

/-- The second result: the row sums of the log-scale. -/
def refLD : (⟨S131072, .f32⟩ : BufTy).Contents (Elt F) :=
  Host.reduceAdd (sAct x ctx W1 b1 W2 b2) (constant S_ .f32 0x00000000#32) reducesTo_S131072x256_S131072_d1 h_S_

end

/-! ## The fold at the result and argument buffers -/

attribute [local irreducible] Host.gather Host.scatter Host.reduceAdd concatenate in
theorem after_v38 (V : Valuation τ sig (Elt F)) :
    after ops V (main_v38 : DevRef τ sig)
      = refY (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

attribute [local irreducible] Host.gather Host.scatter Host.reduceAdd concatenate in
theorem after_v39 (V : Valuation τ sig (Elt F)) :
    after ops V (main_v39 : DevRef τ sig)
      = refLD (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp
theorem after_arg4 (V : Valuation τ sig (Elt F)) : after ops V (main_arg4 : DevRef τ sig) = V (main_arg4 : DevRef τ sig) := by
  after_results_simp
theorem after_arg5 (V : Valuation τ sig (Elt F)) : after ops V (main_arg5 : DevRef τ sig) = V (main_arg5 : DevRef τ sig) := by
  after_results_simp

/-- The run with both results as stages of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = refY (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v39)
          = refLD (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v38).trans (after_v38 _), (h c main_v39).trans (after_v39 _),
       (h c main_arg0).trans (after_arg0 _), (h c main_arg1).trans (after_arg1 _), (h c main_arg2).trans (after_arg2 _),
       (h c main_arg3).trans (after_arg3 _), (h c main_arg4).trans (after_arg4 _), (h c main_arg5).trans (after_arg5 _)⟩)
    (run_fold m ρ)

end Cert.Coupling.Ref

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibColumns.lean ====
/-
  TWO HOST OPERATIONS THAT MOVE WHOLE COLUMNS of a rank-2 array, read at an index: the gather that picks columns
  (what x[:, idx] lowers to) and the overwriting scatter that puts columns back (what x.at[:, idx].set(u) lowers to).

  Both have scatter or start indices of shape [K, 1] with the index vector on axis 1: entry k carries one column
  number idx[k, 0]. The extents R, C, K and the index width w are variables; the dimension numbers are known only
  through equations on their lists.

  GATHER: operand [R, C], result [R, K], offset axes [0], collapsed slice axes [1], start index map [1], slice sizes
  [R, 1], no batching axes. The result at (r, k) is the operand at row r and column idx[k, 0], read signed and clamped
  into [0, C - 1].

  SCATTER (overwriting): operand [R, C], updates [R, K], update window axes [0], inserted window axes [1], scatter axes
  to operand axes [1]. When distinct k carry distinct column numbers, the result at (r, c) is the update at (r, k) for
  the k whose column number is c, and the operand at (r, c) when no k has column number c. The scatter is a left fold
  over all update elements; at a fixed target only the updates that land there matter, and they all carry one value.
-/
import proofs.«418403_j38010460569904_3_alg».proof.Proof.LibScatterSum

noncomputable section

namespace Idealize.ShloMosaic.Columns

open Idealize.ShloMosaic Idealize.ShloMosaic.ValueIdx

variable {α : Type} {R C K w : Nat}

/-! ## The gather: the start-indices index of a result index -/

/-- With start indices [N, 1], the index vector on axis 1 and one result batch axis a, the result index j reads its
    start index at [n, 0], n its coordinate on a. -/
theorem gather_siIdx_one {s t : Shape} {N : Nat} (d : GatherDims s (⟨2, ![N, 1]⟩ : Shape) t) (hiv : d.indexVectorDim = 1)
    (a : Fin t.rank) (ha : d.batchDims = [a]) (j : t.Idx) (c : Fin d.startIndexMap.length) (n : Fin N)
    (hn : (j a).val = n.val) : d.siIdx j c = ix2 n (0 : Fin 1) := by
  funext b
  refine Fin.ext ?_
  match b with
  | ⟨0, hb⟩ =>
    show (d.siIdx j c ⟨0, hb⟩).val = n.val
    unfold GatherDims.siIdx
    rw [dif_neg (by rw [hiv]; exact Nat.zero_ne_one)]
    unfold GatherDims.siCoord
    rw [← hn]
    exact congrArg (fun e => (j e).val) (ScatterSum.getElem_of_eq_singleton ha _ _)
  | ⟨1, hb⟩ =>
    have h1 : (d.siIdx j c ⟨1, hb⟩).val < 1 := (d.siIdx j c ⟨1, hb⟩).isLt
    show (d.siIdx j c ⟨1, hb⟩).val = 0
    omega

/-- THE COLUMN GATHER READ AT (r, k): the operand at row r and the clamped column number of entry k. -/
theorem gather_cols_apply (hC : 0 < C) (d : GatherDims (⟨2, ![R, C]⟩ : Shape) (⟨2, ![K, 1]⟩ : Shape) (⟨2, ![R, K]⟩ : Shape))
    (hod : d.offsetDims = [0]) (hcs : d.collapsedSliceDims = [1]) (hob : d.operandBatchingDims = [])
    (hsm : d.startIndexMap = [1]) (hiv : d.indexVectorDim = 1) (hss : d.sliceSizes 1 = 1)
    (x : (⟨2, ![R, C]⟩ : Shape).Idx → α) (idx : IVec (⟨2, ![K, 1]⟩ : Shape) w) (r : Fin R) (k : Fin K) :
    Host.gather d x idx (ix2 r k)
      = x (ix2 r ⟨min (idx (ix2 k (0 : Fin 1))).toInt.toNat (C - 1), by omega⟩) := by
  have h10 : ¬ (1 : Fin 2) = 0 := fun h => absurd (congrArg Fin.val h) Nat.one_ne_zero
  have h01 : ¬ (0 : Fin 2) = 1 := fun h => absurd (congrArg Fin.val h) Nat.zero_ne_one
  have hbd : d.batchDims = [1] := by
    show Shape.kept _ d.offsetDims = [1]
    rw [hod]; rfl
  have hnb : ∀ a : Fin 2, a ∉ d.operandBatchingDims := by
    intro a; rw [hob]; exact List.not_mem_nil
  have h0k : (0 : Fin 2) ∈ d.sKept := by
    rw [GatherDims.mem_sKept, hcs]
    exact ⟨fun h => h01 (List.mem_singleton.1 h), hnb 0⟩
  have h1k : (1 : Fin 2) ∉ d.sKept := by
    rw [GatherDims.mem_sKept, hcs]
    exact fun h => h.1 (List.mem_singleton.2 rfl)
  have h0m : (0 : Fin 2) ∉ d.startIndexMap := by
    rw [hsm]; exact fun h => h01 (List.mem_singleton.1 h)
  have h1m : (1 : Fin 2) ∈ d.startIndexMap := by
    rw [hsm]; exact List.mem_singleton.2 rfl
  unfold Host.gather
  congr 1
  funext a
  refine Fin.ext ?_
  match a with
  | ⟨0, _⟩ =>
    show d.start (ix2 r k) idx 0 + d.batchCoord (ix2 r k) 0 + d.offCoord (ix2 r k) 0 = r.val
    rw [GatherDims.batchCoord_eq_zero _ _ _ (hnb 0)]
    have hs : d.start (ix2 r k) idx 0 = 0 := by
      unfold GatherDims.start
      rw [dif_neg h0m]
    have ho : d.offCoord (ix2 r k) 0 = r.val := by
      unfold GatherDims.offCoord
      rw [dif_pos h0k]
      exact congrArg (fun e => ((ix2 r k : (⟨2, ![R, K]⟩ : Shape).Idx) e).val)
        (ScatterSum.getElem_of_eq_singleton hod _ _)
    rw [hs, ho]
    omega
  | ⟨1, _⟩ =>
    show d.start (ix2 r k) idx 1 + d.batchCoord (ix2 r k) 1 + d.offCoord (ix2 r k) 1
      = min (idx (ix2 k (0 : Fin 1))).toInt.toNat (C - 1)
    rw [GatherDims.batchCoord_eq_zero _ _ _ (hnb 1), GatherDims.offCoord_eq_zero _ _ _ h1k]
    show d.start (ix2 r k) idx 1 = _
    unfold GatherDims.start
    rw [dif_pos h1m, gather_siIdx_one d hiv 1 hbd (ix2 r k) _ k rfl, hss]
    rfl

/-! ## The overwriting scatter as a fold, read at one target -/

section Fold
variable {s si u : Shape} (d : ScatterDims s si u) (f : α → α → α) (idx : IVec si w) (upd : u.Idx → α)

/-- Updates that do not land at the target leave it as it was. -/
theorem foldl_apply_of_not_landing (l : List (Fin u.numel)) (r0 : s.Idx → α) (t : s.Idx)
    (h : ∀ n ∈ l, d.resultIdx? (u.rowMajor.symm n) idx ≠ some t) :
    l.foldl (fun r n =>
        match d.resultIdx? (u.rowMajor.symm n) idx with
        | some i => fun i' => if i' = i then f (r i) (upd (u.rowMajor.symm n)) else r i'
        | none => r) r0 t = r0 t := by
  induction l generalizing r0 with
  | nil => rfl
  | cons n l ih =>
    rw [List.foldl_cons]
    refine (ih _ fun m hm => h m (List.mem_cons_of_mem _ hm)).trans ?_
    have hn := h n List.mem_cons_self
    generalize d.resultIdx? (u.rowMajor.symm n) idx = o at hn
    cases o with
    | none => rfl
    | some i =>
      show (if t = i then _ else r0 t) = r0 t
      rw [if_neg fun e => hn (by rw [e])]

/-- When some update lands at the target and every update that lands there carries the value v, an overwriting fold
    leaves v there. -/
theorem foldl_apply_of_landing (hf : ∀ a b, f a b = b) (l : List (Fin u.numel)) (r0 : s.Idx → α) (t : s.Idx) (v : α)
    (hex : ∃ n ∈ l, d.resultIdx? (u.rowMajor.symm n) idx = some t)
    (hv : ∀ n ∈ l, d.resultIdx? (u.rowMajor.symm n) idx = some t → upd (u.rowMajor.symm n) = v) :
    l.foldl (fun r n =>
        match d.resultIdx? (u.rowMajor.symm n) idx with
        | some i => fun i' => if i' = i then f (r i) (upd (u.rowMajor.symm n)) else r i'
        | none => r) r0 t = v := by
  induction l generalizing r0 with
  | nil =>
    obtain ⟨n, hn, _⟩ := hex
    exact absurd hn List.not_mem_nil
  | cons n l ih =>
    rw [List.foldl_cons]
    by_cases hlater : ∃ m ∈ l, d.resultIdx? (u.rowMajor.symm m) idx = some t
    · exact ih _ hlater fun m hm => hv m (List.mem_cons_of_mem _ hm)
    · refine (foldl_apply_of_not_landing d f idx upd l _ t fun m hm e => hlater ⟨m, hm, e⟩).trans ?_
      have hn : d.resultIdx? (u.rowMajor.symm n) idx = some t := by
        obtain ⟨m, hm, e⟩ := hex
        rcases List.mem_cons.1 hm with rfl | hm'
        · exact e
        · exact absurd ⟨m, hm', e⟩ hlater
      have hvn := hv n List.mem_cons_self hn
      generalize d.resultIdx? (u.rowMajor.symm n) idx = o at hn
      cases o with
      | none => exact absurd hn (by simp)
      | some i =>
        obtain rfl : i = t := Option.some.inj hn
        show (if i = i then f (r0 i) (upd (u.rowMajor.symm n)) else r0 i) = v
        rw [if_pos rfl, hf, hvn]

end Fold

/-! ## The column pattern: where an update element lands -/

/-- Update element (r', k) lands at (r, c) exactly when entry k's column number is c and the rows agree. -/
theorem resultIdx_cols (d : ScatterDims (⟨2, ![R, C]⟩ : Shape) (⟨2, ![K, 1]⟩ : Shape) (⟨2, ![R, K]⟩ : Shape))
    (huw : d.updateWindowDims = [0]) (hiw : d.insertedWindowDims = [1]) (hsd : d.scatterDimsToOperandDims = [1])
    (hiv : d.indexVectorDim = 1) (idx : IVec (⟨2, ![K, 1]⟩ : Shape) w) (r' : Fin R) (k : Fin K) (r : Fin R)
    (c : Fin C) :
    d.resultIdx? (ix2 r' k) idx = some (ix2 r c) ↔ ((idx (ix2 k (0 : Fin 1))).toInt = (c.val : Int) ∧ r' = r) := by
  have h10 : ¬ (1 : Fin 2) = 0 := fun h => absurd (congrArg Fin.val h) Nat.one_ne_zero
  have h01 : ¬ (0 : Fin 2) = 1 := fun h => absurd (congrArg Fin.val h) Nat.zero_ne_one
  have huS : d.uScatter = [1] := by
    show Shape.kept _ d.updateWindowDims = [1]
    rw [huw]; rfl
  have h1mem : (1 : Fin 2) ∈ d.scatterDimsToOperandDims := by rw [hsd]; exact List.mem_singleton.2 rfl
  have h0nmem : (0 : Fin 2) ∉ d.scatterDimsToOperandDims := by
    rw [hsd]; exact fun h => h01 (List.mem_singleton.1 h)
  have h1k : (1 : Fin 2) ∉ d.sKept := by
    show _ ∉ Shape.kept _ d.insertedWindowDims
    rw [hiw, ScatterSum.mem_kept]; exact fun h => h (List.mem_singleton.2 rfl)
  have h0k : (0 : Fin 2) ∈ d.sKept := by
    show _ ∈ Shape.kept _ d.insertedWindowDims
    rw [hiw, ScatterSum.mem_kept]; exact fun h => h01 (List.mem_singleton.1 h)
  have hs1 : d.start (ix2 r' k) idx 1 = (idx (ix2 k (0 : Fin 1))).toInt := by
    rw [ScatterSum.start_of_mem d _ _ _ h1mem, ScatterSum.siIdx_one d hiv 1 huS (ix2 r' k) _ k rfl]
  have hs0 : d.start (ix2 r' k) idx 0 = 0 := ScatterSum.start_of_not_mem d _ _ _ h0nmem
  have hw1 : d.window (ix2 r' k) 1 = 0 := ScatterSum.window_of_not_mem d _ _ h1k
  have hw0 : d.window (ix2 r' k) 0 = r'.val := ScatterSum.window_of_singleton d _ _ h0k 0 huw
  rw [ScatterSum.resultIdx?_eq_some_iff]
  constructor
  · intro h
    have a0 : d.start (ix2 r' k) idx 0 + (d.window (ix2 r' k) 0 : Int) = (r.val : Int) := h 0
    have a1 : d.start (ix2 r' k) idx 1 + (d.window (ix2 r' k) 1 : Int) = (c.val : Int) := h 1
    rw [hs0, hw0] at a0
    rw [hs1, hw1] at a1
    refine ⟨by omega, Fin.ext (by omega)⟩
  · rintro ⟨h1, rfl⟩ a
    match a with
    | ⟨0, _⟩ =>
      show d.start (ix2 r' k) idx 0 + (d.window (ix2 r' k) 0 : Int) = (r'.val : Int)
      rw [hs0, hw0]; omega
    | ⟨1, _⟩ =>
      show d.start (ix2 r' k) idx 1 + (d.window (ix2 r' k) 1 : Int) = (c.val : Int)
      rw [hs1, hw1, h1]; omega

/-- THE OVERWRITING COLUMN SCATTER READ AT (r, c), at a column some entry k names: the update at (r, k). -/
theorem scatter_set_cols_apply_of_eq (d : ScatterDims (⟨2, ![R, C]⟩ : Shape) (⟨2, ![K, 1]⟩ : Shape) (⟨2, ![R, K]⟩ : Shape))
    (huw : d.updateWindowDims = [0]) (hiw : d.insertedWindowDims = [1]) (hsd : d.scatterDimsToOperandDims = [1])
    (hiv : d.indexVectorDim = 1) (x : (⟨2, ![R, C]⟩ : Shape).Idx → α) (idx : IVec (⟨2, ![K, 1]⟩ : Shape) w)
    (upd : (⟨2, ![R, K]⟩ : Shape).Idx → α)
    (hinj : ∀ k k' : Fin K, (idx (ix2 k (0 : Fin 1))).toInt = (idx (ix2 k' (0 : Fin 1))).toInt → k = k')
    (r : Fin R) (c : Fin C) (k : Fin K) (hk : (idx (ix2 k (0 : Fin 1))).toInt = (c.val : Int)) :
    Host.scatter d (fun _ b => b) x idx upd (ix2 r c) = upd (ix2 r k) := by
  unfold Host.scatter
  refine foldl_apply_of_landing d (fun _ b => b) idx upd (fun _ _ => rfl) _ x (ix2 r c) _ ?_ ?_
  · refine ⟨(⟨2, ![R, K]⟩ : Shape).rowMajor (ix2 r k), List.mem_finRange _, ?_⟩
    rw [Equiv.symm_apply_apply]
    exact (resultIdx_cols d huw hiw hsd hiv idx r k r c).2 ⟨hk, rfl⟩
  · intro n _ hn
    obtain ⟨r', k', e⟩ : ∃ r' k', (⟨2, ![R, K]⟩ : Shape).rowMajor.symm n = ix2 r' k' := ⟨_, _, eq_ix2 _⟩
    rw [e] at hn ⊢
    obtain ⟨hc, rfl⟩ := (resultIdx_cols d huw hiw hsd hiv idx r' k' r c).1 hn
    obtain rfl : k' = k := hinj k' k (hc.trans hk.symm)
    rfl

/-- THE OVERWRITING COLUMN SCATTER READ AT (r, c), at a column no entry names: the operand there. -/
theorem scatter_set_cols_apply_of_ne (d : ScatterDims (⟨2, ![R, C]⟩ : Shape) (⟨2, ![K, 1]⟩ : Shape) (⟨2, ![R, K]⟩ : Shape))
    (huw : d.updateWindowDims = [0]) (hiw : d.insertedWindowDims = [1]) (hsd : d.scatterDimsToOperandDims = [1])
    (hiv : d.indexVectorDim = 1) (x : (⟨2, ![R, C]⟩ : Shape).Idx → α) (idx : IVec (⟨2, ![K, 1]⟩ : Shape) w)
    (upd : (⟨2, ![R, K]⟩ : Shape).Idx → α) (r : Fin R) (c : Fin C)
    (hk : ∀ k : Fin K, (idx (ix2 k (0 : Fin 1))).toInt ≠ (c.val : Int)) :
    Host.scatter d (fun _ b => b) x idx upd (ix2 r c) = x (ix2 r c) := by
  unfold Host.scatter
  refine foldl_apply_of_not_landing d (fun _ b => b) idx upd _ x (ix2 r c) ?_
  intro n _ hn
  obtain ⟨r', k', e⟩ : ∃ r' k', (⟨2, ![R, K]⟩ : Shape).rowMajor.symm n = ix2 r' k' := ⟨_, _, eq_ix2 _⟩
  rw [e] at hn
  exact hk k' ((resultIdx_cols d huw hiw hsd hiv idx r' k' r c).1 hn).1

end Idealize.ShloMosaic.Columns

end
-- ==== Proof.RefStages.lean ====
/-
  THE REFERENCE'S MIDDLE STAGES READ AT AN INDEX, as the specification's row functions.

  The reference computes, over whole arrays, hid = max (concat (xEven, ctx) · W1 + b1, 0), st = hid · W2 + b2,
  sAct = tanh (st[:, 0:256]) · 5 and the row sums of sAct. Read at one entry, each is the specification's function of
  row r alone:
    hid[r, j]  is the rectified first layer: the product's sum over the 384 concatenated columns splits at 256 into the
               sum over the conditioning half (the gathered even columns) and the sum over the context row;
    st[r, q]   is the second layer over that hidden row;
    sAct[r, k] is tanh of st[r, k] times the literal 5;
    the row sums of sAct are the log-determinant.
  Only associativity and commutativity of + on the extended reals are used; the two float literals stay words, except the
  reduction's initial value 0, which is the additive zero.
-/
import proofs.«418403_j38010460569904_3_alg».proof.Proof.RefRun
import proofs.«418403_j38010460569904_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws
import Mathlib.Algebra.BigOperators.Fin

noncomputable section

open scoped BigOperators

namespace Cert.Coupling.Ref

open Cert.ReferenceIdeal Cert.ReferenceIdeal.Gen Idealize.ShloMosaic Idealize.ShloMosaic.ValueIdx Cert.Coupling

/-! ## The pieces, each over variables of the literal shapes -/

/-- The first product at (r, j): the sum over the 384 concatenated columns. -/
theorem dot1_at (A : FVec Ideal S131072x384 .f32) (W : FVec Ideal S384x2048 .f32) (r : Fin 131072) (j : Fin 2048) :
    Host.dotGeneral (F := Ideal) dot_S131072x384_S384x2048_S131072x2048_1_0_0_1_n_n none A W (ix2 r j)
      = ∑ c : Fin 384, A (ix2 r c) * W (ix2 c j) :=
  StackMember.dotGeneral_plain_apply (m := 131072) (n := 2048) (k := 384) none A W r j

/-- The second product at (r, q): the sum over the 2048 hidden columns. -/
theorem dot2_at (A : FVec Ideal S131072x2048 .f32) (W : FVec Ideal S2048x512 .f32) (r : Fin 131072) (q : Fin 512) :
    Host.dotGeneral (F := Ideal) dot_S131072x2048_S2048x512_S131072x512_1_0_0_1_n_n none A W (ix2 r q)
      = ∑ c : Fin 2048, A (ix2 r c) * W (ix2 c q) :=
  StackMember.dotGeneral_plain_apply (m := 131072) (n := 512) (k := 2048) none A W r q

/-- The first bias, laid out as a row and copied into every row, at (r, j). -/
theorem bias1_at (b : FVec Ideal S2048 .f32) (r : Fin 131072) (j : Fin 2048) :
    broadcastInDim S131072x2048 ![0, 1] bcast_S1x2048_S131072x2048_0_1 (broadcastInDim S1x2048 ![1] bcast_S2048_S1x2048_1 b)
      (ix2 r j) = b (ix1 j) :=
  (broadcastInDim_apply _ _ _ (ix2 r j) (ix2 (0 : Fin 1) j) (fun a => by
    match a with
    | ⟨0, _⟩ => rfl
    | ⟨1, _⟩ => rfl)).trans
  (broadcastInDim_apply _ _ _ (ix2 (0 : Fin 1) j) (ix1 j) (fun a => by
    match a with
    | ⟨0, _⟩ => rfl))

/-- The second bias likewise, at (r, q). -/
theorem bias2_at (b : FVec Ideal S512 .f32) (r : Fin 131072) (q : Fin 512) :
    broadcastInDim S131072x512 ![0, 1] bcast_S1x512_S131072x512_0_1 (broadcastInDim S1x512 ![1] bcast_S512_S1x512_1 b)
      (ix2 r q) = b (ix1 q) :=
  (broadcastInDim_apply _ _ _ (ix2 r q) (ix2 (0 : Fin 1) q) (fun a => by
    match a with
    | ⟨0, _⟩ => rfl
    | ⟨1, _⟩ => rfl)).trans
  (broadcastInDim_apply _ _ _ (ix2 (0 : Fin 1) q) (ix1 q) (fun a => by
    match a with
    | ⟨0, _⟩ => rfl))

/-- The concatenation at a column below 256: the first piece there. -/
theorem concat_left (A : FVec Ideal S131072x256 .f32) (B : FVec Ideal S131072x128 .f32) (r : Fin 131072) (k : Fin 256) :
    concatenate S131072x384 1 [⟨S131072x256, A⟩, ⟨S131072x128, B⟩] concatenates_S131072x256_S131072x128_S131072x384_d1
      (ix2 r (condRow k)) = A (ix2 r k) :=
  concatenate_pair_apply_left 1 A B _ (ix2 r (condRow k)) rfl (ix2 r k) (fun b => by
    match b with
    | ⟨0, _⟩ => rfl
    | ⟨1, _⟩ => rfl)

/-- The concatenation at column 256 + k: the second piece at k. -/
theorem concat_right (A : FVec Ideal S131072x256 .f32) (B : FVec Ideal S131072x128 .f32) (r : Fin 131072) (k : Fin 128) :
    concatenate S131072x384 1 [⟨S131072x256, A⟩, ⟨S131072x128, B⟩] concatenates_S131072x256_S131072x128_S131072x384_d1
      (ix2 r (ctxRow k)) = B (ix2 r k) :=
  concatenate_pair_apply_right 1 A B _ (ix2 r (ctxRow k)) rfl rfl (ix2 r k) (fun b hb => by
    match b with
    | ⟨0, _⟩ => rfl
    | ⟨1, _⟩ => exact absurd rfl hb) (Nat.add_comm _ _)

/-- A sum over 384 columns splits at 256. -/
theorem sum_split (f : Fin 384 → EReal) :
    ∑ c : Fin 384, f c = (∑ k : Fin 256, f (condRow k)) + ∑ k : Fin 128, f (ctxRow k) :=
  Fin.sum_univ_add (a := 256) (b := 128) f

/-- The rectifier's zero, broadcast, at any entry: the literal's word. -/
theorem zero_at (r : Fin 131072) (j : Fin 2048) :
    broadcastInDim S131072x2048 ![] bcast_S_S131072x2048 (constant (F := Ideal) S_ .f32 0x00000000#32) (ix2 r j)
      = Ideal.ofBits .f32 0x00000000#32 :=
  (broadcastInDim_scalar_apply _ _ _).trans (constant_apply _ _)

/-- The scale 5, broadcast, at any entry: the literal's word. -/
theorem five_at (r : Fin 131072) (k : Fin 256) :
    broadcastInDim S131072x256 ![] bcast_S_S131072x256 (constant (F := Ideal) S_ .f32 0x40A00000#32) (ix2 r k)
      = Ideal.ofBits .f32 0x40A00000#32 :=
  (broadcastInDim_scalar_apply _ _ _).trans (constant_apply _ _)

/-- The host's tanh at an entry is the extended reals' tanh of the entry. -/
theorem tanh_at {s : Shape} (X : FVec Ideal s .f32) (i : s.Idx) : Host.tanh X i = Ideal.tanh (X i) := rfl

/-- The scale half of the second layer's output, columns 0 to 255, at (r, k): the source at column k. -/
theorem scale_slice_at (X : FVec Ideal S131072x512 .f32) (r : Fin 131072) (k : Fin 256) :
    extractStridedSlice S131072x256 ![0, 0] X slices_S131072x512_S131072x256_0_0 (ix2 r k) = X (ix2 r (scaleCol k)) :=
  slice2_axis1_apply 0 X _ r k (scaleCol k) (Nat.zero_add _).symm

/-- The row sum of a [131072, 256] array from the initial value 0, at row r. -/
theorem rowsum_at (X : FVec Ideal S131072x256 .f32) (r : Fin 131072) :
    Host.reduceAdd (F := Ideal) X (constant (F := Ideal) S_ .f32 0x00000000#32) reducesTo_S131072x256_S131072_d1 h_S_ (ix1 r)
      = ∑ k : Fin 256, X (ix2 r k) := by
  have hR : S131072x256.Reduces [1] S131072 :=
    ⟨reducesTo_S131072x256_S131072_d1.1, Nat.one_pos, reducesTo_S131072x256_S131072_d1.2⟩
  rw [hostReduceAdd_apply, Ideal.hostReduceAdd_single _ hR, constant_apply, Ideal.ofBits_zero_f32, zero_add]
  refine Finset.sum_congr rfl fun k _ => congrArg X ?_
  funext a
  refine Fin.ext ?_
  match a with
  | ⟨0, _⟩ => rfl
  | ⟨1, _⟩ => rfl

/-! ## The stages -/

section
variable (x : (⟨S131072x512, .f32⟩ : BufTy).Contents (Elt Ideal)) (ctx : (⟨S131072x128, .f32⟩ : BufTy).Contents (Elt Ideal))
  (W1 : (⟨S384x2048, .f32⟩ : BufTy).Contents (Elt Ideal)) (b1 : (⟨S2048, .f32⟩ : BufTy).Contents (Elt Ideal))
  (W2 : (⟨S2048x512, .f32⟩ : BufTy).Contents (Elt Ideal)) (b2 : (⟨S512, .f32⟩ : BufTy).Contents (Elt Ideal))

/-- The hidden layer at (r, j) is the specification's, of row r. -/
theorem hid_at (hE : ∀ (r : Fin 131072) (k : Fin 256), xEven (F := Ideal) x (ix2 r k) = x (ix2 r (evenCol k)))
    (r : Fin 131072) (j : Fin 2048) :
    hid (F := Ideal) x ctx W1 b1 (ix2 r j)
      = rowHidden (fun c => x (ix2 r c)) (fun k => ctx (ix2 r k)) (fun k j => W1 (ix2 (condRow k) j))
          (fun k j => W1 (ix2 (ctxRow k) j)) (fun j => b1 (ix1 j)) j := by
  unfold hid rowHidden
  rw [maximumf_apply, addf_apply, dot1_at, bias1_at, zero_at, sum_split]
  congr 3
  · exact Finset.sum_congr rfl fun k _ => by rw [concat_left, hE]
  · exact Finset.sum_congr rfl fun k _ => by rw [concat_right]

/-- The second layer at (r, q) is the specification's, of row r. -/
theorem st_at (hE : ∀ (r : Fin 131072) (k : Fin 256), xEven (F := Ideal) x (ix2 r k) = x (ix2 r (evenCol k)))
    (r : Fin 131072) (q : Fin 512) :
    st (F := Ideal) x ctx W1 b1 W2 b2 (ix2 r q)
      = rowShiftScale (fun c => x (ix2 r c)) (fun k => ctx (ix2 r k)) (fun k j => W1 (ix2 (condRow k) j))
          (fun k j => W1 (ix2 (ctxRow k) j)) (fun j => b1 (ix1 j)) (fun j q => W2 (ix2 j q)) (fun q => b2 (ix1 q)) q := by
  unfold st rowShiftScale
  rw [addf_apply, dot2_at, bias2_at]
  congr 1
  exact Finset.sum_congr rfl fun j _ => by rw [hid_at x ctx W1 b1 hE r j]

/-- The bounded log-scale at (r, k) is the specification's, of row r. -/
theorem sAct_at (hE : ∀ (r : Fin 131072) (k : Fin 256), xEven (F := Ideal) x (ix2 r k) = x (ix2 r (evenCol k)))
    (r : Fin 131072) (k : Fin 256) :
    sAct (F := Ideal) x ctx W1 b1 W2 b2 (ix2 r k)
      = rowLogScale (fun c => x (ix2 r c)) (fun k => ctx (ix2 r k)) (fun k j => W1 (ix2 (condRow k) j))
          (fun k j => W1 (ix2 (ctxRow k) j)) (fun j => b1 (ix1 j)) (fun j q => W2 (ix2 j q)) (fun q => b2 (ix1 q)) k := by
  unfold sAct rowLogScale
  rw [mulf_apply, five_at, tanh_at, scale_slice_at, st_at x ctx W1 b1 W2 b2 hE r (scaleCol k)]

/-- The row sums of the log-scale are the specification's log-determinant. -/
theorem refLD_eq (hE : ∀ (r : Fin 131072) (k : Fin 256), xEven (F := Ideal) x (ix2 r k) = x (ix2 r (evenCol k))) :
    refLD (F := Ideal) x ctx W1 b1 W2 b2 = Cert.Coupling.logDet x ctx W1 b1 W2 b2 := by
  funext i
  obtain ⟨r, rfl⟩ : ∃ r, i = ix1 r := ⟨i 0, eq_ix1 i⟩
  rw [logDet_ix1]
  unfold refLD logDetAt rowLogDet
  rw [rowsum_at]
  exact Finset.sum_congr rfl fun k _ => sAct_at x ctx W1 b1 W2 b2 hE r k

end

end Cert.Coupling.Ref

end
-- ==== Proof.RefValue.lean ====
/-
  The reference's two results are the specification's arrays.

  The constant tables hold the even and the odd column numbers (read entry by entry); the gathers at them are x's even
  and odd columns; the overwriting scatter at the odd table, each of whose entries names a different column, leaves x at
  the even columns and puts the transformed value at column 2k+1 from entry k. The stages in between are read at an
  index in Proof/RefStages.lean.
-/
import proofs.«418403_j38010460569904_3_alg».proof.Proof.RefRun
import proofs.«418403_j38010460569904_3_alg».proof.Proof.Spec
import proofs.«418403_j38010460569904_3_alg».proof.Proof.LibColumns
import proofs.«418403_j38010460569904_3_alg».proof.Proof.RefStages
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.Coupling.Ref

open Cert.ReferenceIdeal Cert.ReferenceIdeal.Gen Idealize.ShloMosaic Idealize.ShloMosaic.ValueIdx Cert.Coupling

/-! ## The two tables of column numbers -/

/-- Entry k of a wrapped table: the table's word, moved up by 512 when it is negative. -/
theorem colIdx_at (tbl : (⟨S256, .i32⟩ : BufTy).Contents (Elt Ideal)) (k : Fin 256) :
    colIdx (F := Ideal) tbl (ix2 k (0 : Fin 1))
      = Scalar.select (IntOp.cmpi .slt (tbl (ix1 k)) 0#32) (tbl (ix1 k) + 512#32) (tbl (ix1 k)) := by
  unfold colIdx
  rw [broadcastInDim_apply ![0] bcast_S256_S256x1_0 _ (ix2 k (0 : Fin 1)) (ix1 k) (by
    intro a
    match a with
    | ⟨0, _⟩ => rfl)]
  rfl

/-- The even table holds 0, 2, …, 510: none negative, so wrapping leaves them (checked entry by entry). -/
theorem evenTable_val : ∀ k : Fin 256,
    (Scalar.select (IntOp.cmpi .slt (lit0 k) 0#32) (lit0 k + 512#32) (lit0 k)).toInt = ((2 * k.val : Nat) : Int) := by
  decide +kernel

/-- The odd table holds 1, 3, …, 511 (checked entry by entry). -/
theorem oddTable_val : ∀ k : Fin 256,
    (Scalar.select (IntOp.cmpi .slt (lit1 k) 0#32) (lit1 k + 512#32) (lit1 k)).toInt = ((2 * k.val + 1 : Nat) : Int) := by
  decide +kernel

/-- A rank-1 index's row-major position is its coordinate. -/
theorem rowMajor_ix1 (k : Fin 256) : S256.rowMajor (ix1 k) = k :=
  Fin.ext (by rw [Shape.rowMajor_val_one])

/-- Entry k of the even start indices is column 2k. -/
theorem evenIdx_toInt (k : Fin 256) :
    (evenIdx (F := Ideal) (ix2 k (0 : Fin 1))).toInt = ((2 * k.val : Nat) : Int) := by
  unfold evenIdx
  rw [colIdx_at]
  show (Scalar.select (IntOp.cmpi .slt (lit0 (S256.rowMajor (ix1 k))) 0#32) (lit0 (S256.rowMajor (ix1 k)) + 512#32)
    (lit0 (S256.rowMajor (ix1 k)))).toInt = _
  rw [rowMajor_ix1]
  exact evenTable_val k

/-- Entry k of the odd start indices is column 2k+1. -/
theorem oddIdx_toInt (k : Fin 256) :
    (oddIdx (F := Ideal) (ix2 k (0 : Fin 1))).toInt = ((2 * k.val + 1 : Nat) : Int) := by
  unfold oddIdx
  rw [colIdx_at]
  show (Scalar.select (IntOp.cmpi .slt (lit1 (S256.rowMajor (ix1 k))) 0#32) (lit1 (S256.rowMajor (ix1 k)) + 512#32)
    (lit1 (S256.rowMajor (ix1 k)))).toInt = _
  rw [rowMajor_ix1]
  exact oddTable_val k

/-- Distinct entries of the odd table name distinct columns. -/
theorem oddIdx_inj (k k' : Fin 256)
    (h : (oddIdx (F := Ideal) (ix2 k (0 : Fin 1))).toInt = (oddIdx (F := Ideal) (ix2 k' (0 : Fin 1))).toInt) : k = k' := by
  rw [oddIdx_toInt, oddIdx_toInt] at h
  exact Fin.ext (by omega)

/-! ## The gathers -/

section
variable (x : (⟨S131072x512, .f32⟩ : BufTy).Contents (Elt Ideal)) (ctx : (⟨S131072x128, .f32⟩ : BufTy).Contents (Elt Ideal))
  (W1 : (⟨S384x2048, .f32⟩ : BufTy).Contents (Elt Ideal)) (b1 : (⟨S2048, .f32⟩ : BufTy).Contents (Elt Ideal))
  (W2 : (⟨S2048x512, .f32⟩ : BufTy).Contents (Elt Ideal)) (b2 : (⟨S512, .f32⟩ : BufTy).Contents (Elt Ideal))

/-- The even gather at (r, k) is x at column 2k. -/
theorem xEven_at (r : Fin 131072) (k : Fin 256) : xEven (F := Ideal) x (ix2 r k) = x (ix2 r (evenCol k)) := by
  unfold xEven
  refine (Columns.gather_cols_apply (by decide) gather_S131072x512_S256x1_S131072x256_0_1_n_n_1_1_1310721
    rfl rfl rfl rfl rfl rfl x (evenIdx (F := Ideal)) r k).trans ?_
  refine congrArg (fun c => x (ix2 r c)) (Fin.ext ?_)
  show min (evenIdx (F := Ideal) (ix2 k (0 : Fin 1))).toInt.toNat (512 - 1) = 2 * k.val
  rw [evenIdx_toInt, Int.toNat_natCast]
  have := k.isLt
  omega

/-- The odd gather at (r, k) is x at column 2k+1. -/
theorem xOdd_at (r : Fin 131072) (k : Fin 256) : xOdd (F := Ideal) x (ix2 r k) = x (ix2 r (oddCol k)) := by
  unfold xOdd
  refine (Columns.gather_cols_apply (by decide) gather_S131072x512_S256x1_S131072x256_0_1_n_n_1_1_1310721
    rfl rfl rfl rfl rfl rfl x (oddIdx (F := Ideal)) r k).trans ?_
  refine congrArg (fun c => x (ix2 r c)) (Fin.ext ?_)
  show min (oddIdx (F := Ideal) (ix2 k (0 : Fin 1))).toInt.toNat (512 - 1) = 2 * k.val + 1
  rw [oddIdx_toInt, Int.toNat_natCast]
  have := k.isLt
  omega

/-! ## The first result -/

/-- The transformed odd columns at (r, k). -/
theorem yOdd_at (r : Fin 131072) (k : Fin 256) :
    yOdd (F := Ideal) x ctx W1 b1 W2 b2 (ix2 r k)
      = x (ix2 r (oddCol k))
          * Ideal.exp (rowLogScale (fun c => x (ix2 r c)) (fun k => ctx (ix2 r k)) (fun k j => W1 (ix2 (condRow k) j))
              (fun k j => W1 (ix2 (ctxRow k) j)) (fun j => b1 (ix1 j)) (fun j q => W2 (ix2 j q)) (fun q => b2 (ix1 q)) k)
        + rowShiftScale (fun c => x (ix2 r c)) (fun k => ctx (ix2 r k)) (fun k j => W1 (ix2 (condRow k) j))
              (fun k j => W1 (ix2 (ctxRow k) j)) (fun j => b1 (ix1 j)) (fun j q => W2 (ix2 j q)) (fun q => b2 (ix1 q)) (shiftCol k) := by
  unfold yOdd
  rw [addf_apply, mulf_apply, xOdd_at,
    slice2_axis1_apply 256 (st (F := Ideal) x ctx W1 b1 W2 b2) slices_S131072x512_S131072x256_0_256 r k (shiftCol k) rfl,
    st_at x ctx W1 b1 W2 b2 (xEven_at x)]
  show _ * Ideal.exp (sAct (F := Ideal) x ctx W1 b1 W2 b2 (ix2 r k)) + _ = _
  rw [sAct_at x ctx W1 b1 W2 b2 (xEven_at x)]

/-- The reference's first result is the specification's output array: at an even column no table entry names it and
    the scatter keeps x; at an odd column 2k+1 entry k names it and the scatter puts the transformed value there. -/
theorem refY_eq : refY (F := Ideal) x ctx W1 b1 W2 b2 = Cert.Coupling.out x ctx W1 b1 W2 b2 := by
  funext i
  obtain ⟨r, c, rfl⟩ : ∃ (r : Fin 131072) (c : Fin 512), i = ix2 r c := ⟨i 0, i 1, eq_ix2 i⟩
  rw [out_ix2]
  unfold refY outAt rowOut
  by_cases hc : c.val % 2 = 0
  · rw [if_pos hc]
    exact Columns.scatter_set_cols_apply_of_ne scatter_S131072x512_S256x1_S131072x256_0_1_1_1 rfl rfl rfl rfl x
      (oddIdx (F := Ideal)) _ r c (fun k h => by rw [oddIdx_toInt] at h; omega)
  · rw [if_neg hc]
    have hcol : oddCol (pairOf c) = c := Fin.ext (by show 2 * (c.val / 2) + 1 = c.val; omega)
    refine (Columns.scatter_set_cols_apply_of_eq scatter_S131072x512_S256x1_S131072x256_0_1_1_1 rfl rfl rfl rfl x
      (oddIdx (F := Ideal)) _ oddIdx_inj r c (pairOf c) (by
        rw [oddIdx_toInt]; show ((2 * (c.val / 2) + 1 : Nat) : Int) = (c.val : Int); omega)).trans ?_
    rw [yOdd_at, hcol]

/-- The reference's second result is the specification's log-determinant array. -/
theorem refLD_out : refLD (F := Ideal) x ctx W1 b1 W2 b2 = Cert.Coupling.logDet x ctx W1 b1 W2 b2 :=
  refLD_eq x ctx W1 b1 W2 b2 (xEven_at x)

end

end Cert.Coupling.Ref

end
-- ==== Proof.lean ====
/-
  The certificate of the conditional affine coupling kernel against its jnp reference.

  Both idealized programs compute, over the extended reals, the one function of the six argument arrays that
  Proof/Spec.lean states element by element: even columns of x pass through; odd column 2k+1 of row r becomes
  x[r,2k+1] · exp (5 · tanh s) + t, where (s, t) are columns k and 256+k of the second layer of a two-layer network fed
  with the row's even columns and its context row; the second result is the row sum of 5 · tanh s.

  The kernel side (Proof/PayloadAt.lean, Proof/KernelValue.lean): the body's output blocks read at an index are the row
  functions of the blocks' rows, and the 128 blocks of 1024 rows tile the arrays. The two matrix products of the first
  layer are taken separately over the two row blocks of W1 and added.
  The reference side (Proof/RefRun.lean, Proof/RefStages.lean, Proof/RefValue.lean): its run is a straight line of host
  operations; the gathers at the constant tables 0, 2, …, 510 and 1, 3, …, 511 pick the even and odd columns; the first
  layer is ONE product over the concatenation of the even columns and the context, whose contraction sum splits at 256
  into the kernel's two sums (addition on the extended reals is associative and commutative: no finiteness is used); the
  overwriting scatter at the odd table puts the transformed columns back, each target column named by exactly one entry.
  The frames are the generated ones; the idealization pass rewrote nothing, so nothing is owed for it.
-/
import proofs.«418403_j38010460569904_3_alg».proof.Defs
import proofs.«418403_j38010460569904_3_alg».proof.Proof.Gen.Kernel
import proofs.«418403_j38010460569904_3_alg».proof.Proof.Gen.Kernel.Skeleton
import proofs.«418403_j38010460569904_3_alg».proof.Proof.Gen.Kernel.Launch
import proofs.«418403_j38010460569904_3_alg».proof.Proof.Gen.Kernel.Points
import proofs.«418403_j38010460569904_3_alg».proof.Proof.Gen.Kernel.Frame
import proofs.«418403_j38010460569904_3_alg».proof.Proof.Gen.KernelIdeal
import proofs.«418403_j38010460569904_3_alg».proof.Proof.Gen.KernelIdeal.Skeleton
import proofs.«418403_j38010460569904_3_alg».proof.Proof.Gen.KernelIdeal.Launch
import proofs.«418403_j38010460569904_3_alg».proof.Proof.Gen.KernelIdeal.Points
import proofs.«418403_j38010460569904_3_alg».proof.Proof.Gen.KernelIdeal.Frame
import proofs.«418403_j38010460569904_3_alg».proof.Proof.Gen.KernelIdeal.Value
import proofs.«418403_j38010460569904_3_alg».proof.Proof.Gen.ReferenceIdeal
import proofs.«418403_j38010460569904_3_alg».proof.Proof.Gen.Pre_finite_inputs
import proofs.«418403_j38010460569904_3_alg».proof.Proof.KernelValue
import proofs.«418403_j38010460569904_3_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.Coupling.Ref.run (F := Ideal) m ρ),
  trivial,
  fun m ρ m' ρ' _ hagree =>
    ⟨fun c => Cert.Coupling.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     fun c => Cert.Coupling.logDet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     Cert.Coupling.KernelSide.run m ρ,
     (θ_run Cert.ReferenceIdeal.defs _ _).mono (fun _ h c =>
        ⟨by rw [(h c).1, Cert.Coupling.Ref.refY_eq, (hagree c).1, (hagree c).2.1, (hagree c).2.2.1, (hagree c).2.2.2.1,
            (hagree c).2.2.2.2.1, (hagree c).2.2.2.2.2],
         by rw [(h c).2.1, Cert.Coupling.Ref.refLD_out, (hagree c).1, (hagree c).2.1, (hagree c).2.2.1, (hagree c).2.2.2.1,
            (hagree c).2.2.2.2.1, (hagree c).2.2.2.2.2],
         (h c).2.2⟩)
       (Cert.Coupling.Ref.run (F := Ideal) m' ρ')⟩⟩

end Cert.Proof

end
